-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S256x128 : Shape := ⟨2, ![256, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S64x128 .f32) (main_arg12 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S128 .f32) (main_arg7 : FVec F S128x128 .f32) (main_arg8 : FVec F S256x128 .f32) (main_arg9 : FVec F S128 .f32) (main_arg10 : FVec F S128 .f32) (main_arg11 : FVec F S64x128 .f32) (main_arg12 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S600000 32) (main_arg2 : IVec S600000 32) (main_arg3 : FVec F S128x128 .f32) (main_arg4 : FVec F S256x128 .f32) (main_arg5 : FVec F S128 .f32) (main_arg6 : FVec F S128 .f32) (main_arg7 : FVec F S128x128 .f32) (main_arg8 : FVec F S256x128 .f32) (main_arg9 : FVec F S128 .f32) (main_arg10 : FVec F S128 .f32) (main_arg11 : FVec F S64x128 .f32) (main_arg12 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S600000 : Shape := ⟨1, ![600000]⟩
abbrev S128x128 : Shape := ⟨2, ![128, 128]⟩
abbrev S256x128 : Shape := ⟨2, ![256, 128]⟩
abbrev S128 : Shape := ⟨1, ![128]⟩
abbrev S64x128 : Shape := ⟨2, ![64, 128]⟩
abbrev S64 : Shape := ⟨1, ![64]⟩
abbrev S128x256 : Shape := ⟨2, ![128, 256]⟩
abbrev S128x64 : Shape := ⟨2, ![128, 64]⟩
abbrev S5000x128 : Shape := ⟨2, ![5000, 128]⟩
abbrev S5000x256 : Shape := ⟨2, ![5000, 256]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S5000 : Shape := ⟨1, ![5000]⟩
abbrev S5000x1 : Shape := ⟨2, ![5000, 1]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 52
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S256x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S256x128, .f32⟩
  | .hbm, ⟨9, _⟩ => ⟨S128, .f32⟩
  | .hbm, ⟨10, _⟩ => ⟨S128, .f32⟩
  | .hbm, ⟨11, _⟩ => ⟨S64x128, .f32⟩
  | .hbm, ⟨12, _⟩ => ⟨S64, .f32⟩
  | .hbm, ⟨13, _⟩ => ⟨S128x128, .f32⟩
  | .hbm, ⟨14, _⟩ => ⟨S128x256, .f32⟩
  | .hbm, ⟨15, _⟩ => ⟨S128x128, .f32⟩
  | .hbm, ⟨16, _⟩ => ⟨S128x256, .f32⟩
  | .hbm, ⟨17, _⟩ => ⟨S128x64, .f32⟩
  | .hbm, ⟨18, _⟩ => ⟨S50000x128, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S_, .f32⟩
  | .hbm, ⟨29, _⟩ => ⟨S50000x128, .f32⟩
  | .hbm, ⟨30, _⟩ => ⟨S600000x1, .i32⟩
  | .hbm, ⟨31, _⟩ => ⟨S50000x128, .f32⟩
  | .hbm, ⟨32, _⟩ => ⟨S1x128, .f32⟩
  | .hbm, ⟨33, _⟩ => ⟨S1x128, .f32⟩
  | .hbm, ⟨34, _⟩ => ⟨S50000x128, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000x128, .f32⟩
  | .hbm, ⟨44, _⟩ => ⟨S_, .f32⟩
  | .hbm, ⟨45, _⟩ => ⟨S50000x128, .f32⟩
  | .hbm, ⟨46, _⟩ => ⟨S600000x1, .i32⟩
  | .hbm, ⟨47, _⟩ => ⟨S50000x128, .f32⟩
  | .hbm, ⟨48, _⟩ => ⟨S1x128, .f32⟩
  | .hbm, ⟨49, _⟩ => ⟨S1x128, .f32⟩
  | .hbm, ⟨50, _⟩ => ⟨S1x64, .f32⟩
  | .hbm, ⟨51, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x256, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S128x256, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S128x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S128x128_S128x128_1_0 : S128x128.Transposes [1, 0] S128x128
  transposes_S256x128_S128x256_1_0 : S256x128.Transposes [1, 0] S128x256
  transposes_S64x128_S128x64_1_0 : S64x128.Transposes [1, 0] S128x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S5000x256_o0_0_S5000x128 : S5000x256.Slices ![0, 0] S5000x128
  slices_S5000x256_o0_128_S5000x128 : S5000x256.Slices ![0, 128] S5000x128
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  dot_S5000x128_S128x128_S5000x128_1_0_0_1_n_n_wf : DotDims.WF S5000x128 S128x128 S5000x128 [1] [0] [0] [1] [] []
  dot_S5000x128_S128x256_S5000x256_1_0_0_1_n_n_wf : DotDims.WF S5000x128 S128x256 S5000x256 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S256x128 : Shape := ⟨2, ![256, 128]⟩
abbrev S128 : Shape := ⟨1, ![128]⟩
abbrev S64x128 : Shape := ⟨2, ![64, 128]⟩
abbrev S64 : Shape := ⟨1, ![64]⟩
abbrev S128x256 : Shape := ⟨2, ![128, 256]⟩
abbrev S50000x256 : Shape := ⟨2, ![50000, 256]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 132
  | .vmem => 0
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S128x128, .f32⟩
  | 4 => ⟨S256x128, .f32⟩
  | 5 => ⟨S128, .f32⟩
  | 6 => ⟨S128, .f32⟩
  | 7 => ⟨S128x128, .f32⟩
  | 8 => ⟨S256x128, .f32⟩
  | 9 => ⟨S128, .f32⟩
  | 10 => ⟨S128, .f32⟩
  | 11 => ⟨S64x128, .f32⟩
  | 12 => ⟨S64, .f32⟩
  | 13 => ⟨S128x128, .f32⟩
  | 14 => ⟨S50000x128, .f32⟩
  | 15 => ⟨S128x256, .f32⟩
  | 16 => ⟨S50000x256, .f32⟩
  | 17 => ⟨S50000x128, .f32⟩
  | 18 => ⟨S50000x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000x128, .f32⟩
  | 33 => ⟨S_, .f32⟩
  | 34 => ⟨S50000x128, .f32⟩
  | 35 => ⟨S600000x1, .i32⟩
  | 36 => ⟨S50000x128, .f32⟩
  | 37 => ⟨S_, .f32⟩
  | 38 => ⟨S50000, .f32⟩
  | 39 => ⟨S50000x1, .f32⟩
  | 40 => ⟨S_, .f32⟩
  | 41 => ⟨S50000x1, .f32⟩
  | 42 => ⟨S50000x1, .f32⟩
  | 43 => ⟨S50000x128, .f32⟩
  | 44 => ⟨S50000x128, .f32⟩
  | 45 => ⟨S50000x128, .f32⟩
  | 46 => ⟨S_, .f32⟩
  | 47 => ⟨S50000, .f32⟩
  | 48 => ⟨S50000x1, .f32⟩
  | 49 => ⟨S_, .f32⟩
  | 50 => ⟨S50000x1, .f32⟩
  | 51 => ⟨S50000x1, .f32⟩
  | 52 => ⟨S50000x128, .f32⟩
  | 53 => ⟨S50000x128, .f32⟩
  | 54 => ⟨S_, .f32⟩
  | 55 => ⟨S50000x1, .f32⟩
  | 56 => ⟨S50000x1, .f32⟩
  | 57 => ⟨S50000x1, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S128x128, .f32⟩
  | 67 => ⟨S50000x128, .f32⟩
  | 68 => ⟨S128x256, .f32⟩
  | 69 => ⟨S50000x256, .f32⟩
  | 70 => ⟨S50000x128, .f32⟩
  | 71 => ⟨S50000x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S600000x128, .f32⟩
  | 86 => ⟨S_, .f32⟩
  | 87 => ⟨S50000x128, .f32⟩
  | 88 => ⟨S600000x1, .i32⟩
  | 89 => ⟨S50000x128, .f32⟩
  | 90 => ⟨S_, .f32⟩
  | 91 => ⟨S50000, .f32⟩
  | 92 => ⟨S50000x1, .f32⟩
  | 93 => ⟨S_, .f32⟩
  | 94 => ⟨S50000x1, .f32⟩
  | 95 => ⟨S50000x1, .f32⟩
  | 96 => ⟨S50000x128, .f32⟩
  | 97 => ⟨S50000x128, .f32⟩
  | 98 => ⟨S50000x128, .f32⟩
  | 99 => ⟨S_, .f32⟩
  | 100 => ⟨S50000, .f32⟩
  | 101 => ⟨S50000x1, .f32⟩
  | 102 => ⟨S_, .f32⟩
  | 103 => ⟨S50000x1, .f32⟩
  | 104 => ⟨S50000x1, .f32⟩
  | 105 => ⟨S50000x128, .f32⟩
  | 106 => ⟨S50000x128, .f32⟩
  | 107 => ⟨S_, .f32⟩
  | 108 => ⟨S50000x1, .f32⟩
  | 109 => ⟨S50000x1, .f32⟩
  | 110 => ⟨S50000x1, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S128x64, .f32⟩
  | 120 => ⟨S50000x64, .f32⟩
  | 121 => ⟨S1x64, .f32⟩
  | 122 => ⟨S50000x64, .f32⟩
  | 123 => ⟨S50000x64, .f32⟩
  | 124 => ⟨S50000x64, .f32⟩
  | 125 => ⟨S50000x64, .f32⟩
  | 126 => ⟨S_, .f32⟩
  | 127 => ⟨S50000x64, .f32⟩
  | _ => ⟨S50000x128, .f32⟩

abbrev hbmTy0_1 (i : Nat) : BufTy := match i % 128 with
  | 0 => ⟨S50000x64, .f32⟩
  | 1 => ⟨S_, .f32⟩
  | 2 => ⟨S50000x64, .f32⟩
  | 3 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_c_6 : Ref sig .tc := ⟨.hbm, 77, rfl⟩
abbrev main_v52 : Ref sig .tc := ⟨.hbm, 78, rfl⟩
abbrev main_v53 : Ref sig .tc := ⟨.hbm, 79, rfl⟩
abbrev main_c_7 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_8 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_9 : Ref sig .tc := ⟨.hbm, 90, rfl⟩
abbrev main_v62 : Ref sig .tc := ⟨.hbm, 91, rfl⟩
abbrev main_v63 : Ref sig .tc := ⟨.hbm, 92, rfl⟩
abbrev main_cst_10 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_11 : Ref sig .tc := ⟨.hbm, 99, rfl⟩
abbrev main_v69 : Ref sig .tc := ⟨.hbm, 100, rfl⟩
abbrev main_v70 : Ref sig .tc := ⟨.hbm, 101, rfl⟩
abbrev main_cst_12 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_13 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_14 : Ref sig .tc := ⟨.hbm, 126, rfl⟩
abbrev main_v93 : Ref sig .tc := ⟨.hbm, 127, rfl⟩
abbrev main_v94 : Ref sig .tc := ⟨.hbm, 128, rfl⟩
abbrev main_cst_15 : Ref sig .tc := ⟨.hbm, 129, rfl⟩
abbrev main_v95 : Ref sig .tc := ⟨.hbm, 130, rfl⟩
abbrev main_v96 : Ref sig .tc := ⟨.hbm, 131, rfl⟩

abbrev nD : Nat := 1
abbrev τ : Topo := Topo.v7x

variable {F : FTy → Type} [FloatOps F]

class Facts₀ : Prop where
  transposes_S128x128_S128x128_1_0 : S128x128.Transposes [1, 0] S128x128
  transposes_S256x128_S128x256_1_0 : S256x128.Transposes [1, 0] S128x256
  slices_S50000x256_S50000x128_0_0 : S50000x256.Slices ![0, 0] S50000x128
  slices_S50000x256_S50000x128_0_128 : S50000x256.Slices ![0, 128] S50000x128
  bcast_S_S50000x128 : S_.BroadcastsInDim S50000x128 (![] : Fin 0 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  dot_S50000x128_S128x128_S50000x128_1_0_0_1_n_n_wf : DotDims.WF S50000x128 S128x128 S50000x128 [1] [0] [0] [1] [] []
  dot_S50000x128_S128x256_S50000x256_1_0_0_1_n_n_wf : DotDims.WF S50000x128 S128x256 S50000x256 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x64_S50000x64_1_0_0_1_n_n_wf : DotDims.WF S50000x128 S128x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.Spec.lean ====
/-
  The mathematics both programs compute, one row at a time, on the extended reals.

  Every stage of the network acts on the rows of an `[n, 128]` array independently:

    * the FiLM stage of a row `x`: with `m q = ∑ₖ x k · Wt (k, q)`, `γ q = ∑ₖ x k · Ft (k, q)` and
      `β q = ∑ₖ x k · Ft (k, 128 + q)`, the row `max (γ q · m q + β q) 0`;
    * the layer normalisation of a row `h` with scale `g` and shift `b`: with `μ = (∑ₖ h k) / 128` and
      `v = (∑ₖ (h k − μ)²) / 128`, the row `(h q − μ) · rsqrt (v + ε) · g q + b q`;
    * the projection of a row `y`: `logistic (∑ₖ y k · Wpt (k, q) + bp q)`.

  The literals `128`, `ε`, `0` stay the binary words the programs print (the same word on both sides is never
  evaluated).  The whole-array functions apply a row function to every row, for any number `n` of rows, so one
  statement serves a 5000-row block and the 50000-row array.
-/
import Idealize.ShloMosaic.PureOps.Ideal.Laws
import Idealize.ShloMosaic.Lib.ValueIdx

noncomputable section

namespace Cert.Spec

open Idealize.ShloMosaic Idealize.ShloMosaic.ValueIdx

/-- A rank-2 array of extended reals. -/
abbrev A2 (n0 n1 : Nat) : Type := (⟨2, ![n0, n1]⟩ : Shape).Idx → EReal
/-- A rank-1 array of extended reals. -/
abbrev A1 (n : Nat) : Type := (⟨1, ![n]⟩ : Shape).Idx → EReal

/-- The word of `128.0`. -/
abbrev w128 : EReal := Ideal.ofBits .f32 0x43000000#32
/-- The word of the normalisation's `ε`. -/
abbrev wEps : EReal := Ideal.ofBits .f32 0x3727C5AC#32
/-- The word of `0.0`. -/
abbrev wZero : EReal := Ideal.ofBits .f32 0x00000000#32

/-- Lane `q` of the upper half of a 256-lane row. -/
abbrev hi (q : Fin 128) : Fin 256 := ⟨128 + q.val, by have := q.isLt; omega⟩
/-- Lane `q` of the lower half of a 256-lane row. -/
abbrev lo (q : Fin 128) : Fin 256 := ⟨q.val, by have := q.isLt; omega⟩

/-- The FiLM stage of one row. -/
def filmRow (x : Fin 128 → EReal) (Wt : A2 128 128) (Ft : A2 128 256) (q : Fin 128) : EReal :=
  max ((∑ k : Fin 128, x k * Ft (ix2 k (lo q))) * (∑ k : Fin 128, x k * Wt (ix2 k q))
        + ∑ k : Fin 128, x k * Ft (ix2 k (hi q))) wZero

/-- The mean of a row. -/
def mean (h : Fin 128 → EReal) : EReal := Ideal.div (∑ k : Fin 128, h k) w128

/-- The layer normalisation of one row. -/
def lnRow (h g b : Fin 128 → EReal) (q : Fin 128) : EReal :=
  (h q - mean h) * Ideal.rsqrt (Ideal.div (∑ k : Fin 128, (h k - mean h) * (h k - mean h)) w128 + wEps) * g q + b q

/-- The projection of one row, through the logistic function. -/
def projRow (y : Fin 128 → EReal) (Wpt : A2 128 64) (bp : Fin 64 → EReal) (q : Fin 64) : EReal :=
  Ideal.logistic ((∑ k : Fin 128, y k * Wpt (ix2 k q)) + bp q)

/-- Row `p` of an array. -/
abbrev row {n n1 : Nat} (x : A2 n n1) (p : Fin n) : Fin n1 → EReal := fun k => x (ix2 p k)

/-- The FiLM stage of every row. -/
def Film {n : Nat} (x : A2 n 128) (Wt : A2 128 128) (Ft : A2 128 256) : A2 n 128 :=
  fun i => filmRow (row x (i 0)) Wt Ft (i 1)

/-- The layer normalisation of every row. -/
def LNorm {n : Nat} (h : A2 n 128) (g b : Fin 128 → EReal) : A2 n 128 :=
  fun i => lnRow (row h (i 0)) g b (i 1)

/-- The projection of every row. -/
def Proj {n : Nat} (y : A2 n 128) (Wpt : A2 128 64) (bp : Fin 64 → EReal) : A2 n 64 :=
  fun i => projRow (row y (i 0)) Wpt bp (i 1)

theorem Film_apply {n : Nat} (x : A2 n 128) (Wt : A2 128 128) (Ft : A2 128 256) (p : Fin n) (q : Fin 128) :
    Film x Wt Ft (ix2 p q) = filmRow (row x p) Wt Ft q := rfl
theorem LNorm_apply {n : Nat} (h : A2 n 128) (g b : Fin 128 → EReal) (p : Fin n) (q : Fin 128) :
    LNorm h g b (ix2 p q) = lnRow (row h p) g b q := rfl
theorem Proj_apply {n : Nat} (y : A2 n 128) (Wpt : A2 128 64) (bp : Fin 64 → EReal) (p : Fin n) (q : Fin 64) :
    Proj y Wpt bp (ix2 p q) = projRow (row y p) Wpt bp q := rfl

/-- The only lane of a one-row array, as a function of the lane. -/
abbrev lane {n1 : Nat} (g : A2 1 n1) : Fin n1 → EReal := fun k => g (ix2 0 k)
/-- A vector as a function of its coordinate. -/
abbrev coord {n : Nat} (g : A1 n) : Fin n → EReal := fun k => g (ix1 k)

end Cert.Spec

end
-- ==== Proof.KLn.lean ====
/-
  The layer normalisation the second and third kernel bodies open with, on a 5000-row block: every row is
  normalised by its own mean and variance, scaled by `g` and shifted by `b` (one-row arrays).
-/
import proofs.«105840_j84765474554364_1_alg».proof.Proof.Gen.KernelIdeal.Skeleton
import proofs.«105840_j84765474554364_1_alg».proof.Proof.LibRowwise
import proofs.«105840_j84765474554364_1_alg».proof.Proof.Spec

noncomputable section

namespace Cert.KernelIdeal.Stage

open Idealize.ShloMosaic Idealize.ShloMosaic.ValueIdx Cert.KernelIdeal Cert.KernelIdeal.Gen

/-- The normalisation of a block, operation by operation as the kernel bodies spell it. -/
def kLN (v0 : Vec Ideal S5000x128 .f32) (v20 v24 : Vec Ideal S1x128 .f32) : FVec Ideal S5000x128 .f32 :=
  have v1 : FVec Ideal S5000x128 .f32 := shapeCast S5000x128 v0 shapeCasts_S5000x128_S5000x128
  have v2 : FVec Ideal S5000 .f32 := multiReduction .add [1] S5000 v1 0x00000000#32 reduces_S5000x128_S5000 (.inl rfl) rfl
  have v3 : FVec Ideal S5000x1 .f32 := shapeCast S5000x1 v2 shapeCasts_S5000_S5000x1
  have cst_1 : Ideal .f32 := Scalar.ofBits .f32 0x43000000#32
  have v4 : FVec Ideal S5000x1 .f32 := broadcast S5000x1 cst_1
  have v5 : FVec Ideal S5000x1 .f32 := divf v3 v4
  have v6 : FVec Ideal S5000x128 .f32 := broadcastTo S5000x128 v5 broadcasts_S5000x1_S5000x128
  have v7 : FVec Ideal S5000x128 .f32 := subf v1 v6
  have v8 : FVec Ideal S5000x128 .f32 := mulf v7 v7
  have v9 : FVec Ideal S5000 .f32 := multiReduction .add [1] S5000 v8 0x00000000#32 reduces_S5000x128_S5000 (.inl rfl) rfl
  have v10 : FVec Ideal S5000x1 .f32 := shapeCast S5000x1 v9 shapeCasts_S5000_S5000x1
  have cst_3 : Ideal .f32 := Scalar.ofBits .f32 0x43000000#32
  have v11 : FVec Ideal S5000x1 .f32 := broadcast S5000x1 cst_3
  have v12 : FVec Ideal S5000x1 .f32 := divf v10 v11
  have v13 : FVec Ideal S5000x128 .f32 := broadcastTo S5000x128 v5 broadcasts_S5000x1_S5000x128
  have v14 : FVec Ideal S5000x128 .f32 := subf v1 v13
  have cst_4 : Ideal .f32 := Scalar.ofBits .f32 0x3727C5AC#32
  have v15 : FVec Ideal S5000x1 .f32 := broadcast S5000x1 cst_4
  have v16 : FVec Ideal S5000x1 .f32 := addf v12 v15
  have v17 : FVec Ideal S5000x1 .f32 := rsqrt v16
  have v18 : FVec Ideal S5000x128 .f32 := broadcastTo S5000x128 v17 broadcasts_S5000x1_S5000x128
  have v19 : FVec Ideal S5000x128 .f32 := mulf v14 v18
  have v21 : FVec Ideal S1x128 .f32 := shapeCast S1x128 v20 shapeCasts_S1x128_S1x128
  have v22 : FVec Ideal S5000x128 .f32 := broadcastTo S5000x128 v21 broadcasts_S1x128_S5000x128
  have v23 : FVec Ideal S5000x128 .f32 := mulf v19 v22
  have v25 : FVec Ideal S1x128 .f32 := shapeCast S1x128 v24 shapeCasts_S1x128_S1x128
  have v26 : FVec Ideal S5000x128 .f32 := broadcastTo S5000x128 v25 broadcasts_S1x128_S5000x128
  have v27 : FVec Ideal S5000x128 .f32 := addf v23 v26
  v27

/-- A one-row array broadcast along the rows reads, at `(p, q)`, the row at `(0, q)`. -/
theorem rowBroadcast_apply {A B : Nat} {α : Type} (v : (⟨2, ![1, B]⟩ : Shape).Idx → α)
    (h : (⟨2, ![1, B]⟩ : Shape).Broadcasts ⟨2, ![A, B]⟩) (hB : B ≠ 1) (p : Fin A) (q : Fin B) :
    broadcastTo ⟨2, ![A, B]⟩ v h (ix2 p q) = v (ix2 0 q) := by
  refine broadcastTo_apply v h (ix2 p q) (ix2 0 q) fun a => ?_
  match a with
  | ⟨0, _⟩ => exact (if_pos rfl).symm
  | ⟨1, _⟩ => exact (if_neg hB).symm

/-- Row by row it is the normalisation of the specification. -/
theorem kLN_eq (h : Vec Ideal S5000x128 .f32) (g b : Vec Ideal S1x128 .f32) :
    kLN h g b = Spec.LNorm h (Spec.lane g) (Spec.lane b) := by
  funext i
  obtain ⟨p, q, rfl⟩ : ∃ (p : Fin 5000) (q : Fin 128), i = ix2 p q := ⟨i 0, i 1, eq_ix2 i⟩
  rw [Spec.LNorm_apply]
  unfold Spec.lnRow Spec.mean
  have h128 : (128 : Nat) ≠ 1 := by decide
  have h5000 : (5000 : Nat) ≠ 1 := by decide
  -- a lane sum of a block at row `p` is the sum over the row
  have hsum : ∀ (src : FVec Ideal S5000x128 .f32) (p : Fin 5000),
      multiReduction .add [1] S5000 src 0x00000000#32 reduces_S5000x128_S5000 (.inl rfl) rfl (ix1 p)
        = ∑ k : Fin 128, src (ix2 p k) := fun src p => Cert.Lib.Rowwise.laneSum_apply src _ _ _ _ p
  -- push the index (p, q) through the pointwise operations, the columns and the broadcasts
  simp only [kLN, addf, mulf, subf, divf, rsqrt, broadcast, shapeCast_self, rowBroadcast_apply (A := 5000) (B := 128) _ _ h128,
    Cert.Lib.Rowwise.columnBroadcast_apply (A := 5000) (B := 128) _ _ h5000, Cert.Lib.Rowwise.column_apply, hsum]
  -- what is left is the specification's row, operation for operation
  rfl

end Cert.KernelIdeal.Stage

end
-- ==== Proof.KFilm.lean ====
/-
  The FiLM stage of a 5000-row block as the first kernel body computes it: two products with the weight arrays
  into zero accumulators, the 256-lane product cut into its halves, multiply, add, clamp at zero.
-/
import proofs.«105840_j84765474554364_1_alg».proof.Proof.Gen.KernelIdeal.Skeleton
import proofs.«105840_j84765474554364_1_alg».proof.Proof.LibRowwise
import proofs.«105840_j84765474554364_1_alg».proof.Proof.Spec

noncomputable section

namespace Cert.KernelIdeal.Stage

open Idealize.ShloMosaic Idealize.ShloMosaic.ValueIdx Cert.KernelIdeal Cert.KernelIdeal.Gen

/-- The product with the square weight array into the zero accumulator, at `(p, q)`. -/
theorem mmW_apply (a : FVec Ideal S5000x128 .bf16) (b : FVec Ideal S128x128 .bf16) (p : Fin 5000) (q : Fin 128) :
    matmul dot_S5000x128_S128x128_S5000x128_1_0_0_1_n_n none a b (constant S5000x128 .f32 0x00000000#32) (ix2 p q)
      = ∑ k : Fin 128, a (ix2 p k) * b (ix2 k q) := by
  rw [Cert.Lib.Rowwise.eq_plain dot_S5000x128_S128x128_S5000x128_1_0_0_1_n_n rfl rfl rfl rfl rfl rfl]
  exact Cert.Lib.Rowwise.plain_matmul_zero_apply none a b p q

/-- The product with the 256-lane weight array into the zero accumulator, at `(p, q)`. -/
theorem mmF_apply (a : FVec Ideal S5000x128 .bf16) (b : FVec Ideal S128x256 .bf16) (p : Fin 5000) (q : Fin 256) :
    matmul dot_S5000x128_S128x256_S5000x256_1_0_0_1_n_n none a b (constant S5000x256 .f32 0x00000000#32) (ix2 p q)
      = ∑ k : Fin 128, a (ix2 p k) * b (ix2 k q) := by
  rw [Cert.Lib.Rowwise.eq_plain dot_S5000x128_S128x256_S5000x256_1_0_0_1_n_n rfl rfl rfl rfl rfl rfl]
  exact Cert.Lib.Rowwise.plain_matmul_zero_apply none a b p q

/-- The lower half of a 256-lane array, at `(p, q)`: lane `q`. -/
theorem sliceLo_apply {α : Type} (v : S5000x256.Idx → α) (p : Fin 5000) (q : Fin 128) :
    extractStridedSlice S5000x128 ![0, 0] v slices_S5000x256_o0_0_S5000x128 (ix2 p q) = v (ix2 p (Spec.lo q)) := by
  refine extractStridedSlice_apply ![0, 0] v slices_S5000x256_o0_0_S5000x128 (ix2 p q) (ix2 p (Spec.lo q)) fun a => ?_
  match a with
  | ⟨0, _⟩ => exact (Nat.zero_add _).symm
  | ⟨1, _⟩ => exact (Nat.zero_add _).symm

/-- The upper half of a 256-lane array, at `(p, q)`: lane `128 + q`. -/
theorem sliceHi_apply {α : Type} (v : S5000x256.Idx → α) (p : Fin 5000) (q : Fin 128) :
    extractStridedSlice S5000x128 ![0, 128] v slices_S5000x256_o0_128_S5000x128 (ix2 p q) = v (ix2 p (Spec.hi q)) := by
  refine extractStridedSlice_apply ![0, 128] v slices_S5000x256_o0_128_S5000x128 (ix2 p q) (ix2 p (Spec.hi q)) fun a => ?_
  match a with
  | ⟨0, _⟩ => exact (Nat.zero_add _).symm
  | ⟨1, _⟩ => rfl

/-- Row by row the first body's stored value is the FiLM stage of the specification. -/
theorem kFilm_eq (x : Vec Ideal S5000x128 .f32) (Wt : Vec Ideal S128x128 .f32) (Ft : Vec Ideal S128x256 .f32) :
    k0_pay1 (F := Ideal) x Wt Ft = Spec.Film x Wt Ft := by
  funext i
  obtain ⟨p, q, rfl⟩ : ∃ (p : Fin 5000) (q : Fin 128), i = ix2 p q := ⟨i 0, i 1, eq_ix2 i⟩
  rw [Spec.Film_apply]
  unfold Spec.filmRow k0_pay1
  rw [shapeCast_self, shapeCast_self]
  show max (extractStridedSlice (s := S5000x256) S5000x128 ![0, 0] _ slices_S5000x256_o0_0_S5000x128 (ix2 p q) * matmul _ none _ _ _ (ix2 p q)
        + extractStridedSlice (s := S5000x256) S5000x128 ![0, 128] _ slices_S5000x256_o0_128_S5000x128 (ix2 p q)) Spec.wZero = _
  rw [sliceLo_apply, sliceHi_apply, mmW_apply, mmF_apply, mmF_apply]
  rfl

end Cert.KernelIdeal.Stage

end
-- ==== Proof.KProj.lean ====
/-
  The projection the third kernel body ends with, on a 5000-row block: a product with the 128×64 weights into a
  zero accumulator, the bias row added, the logistic function.
-/
import proofs.«105840_j84765474554364_1_alg».proof.Proof.Gen.KernelIdeal.Skeleton
import proofs.«105840_j84765474554364_1_alg».proof.Proof.LibRowwise
import proofs.«105840_j84765474554364_1_alg».proof.Proof.Spec

noncomputable section

namespace Cert.KernelIdeal.Stage

open Idealize.ShloMosaic Idealize.ShloMosaic.ValueIdx Cert.KernelIdeal Cert.KernelIdeal.Gen

/-- The projection of a block, operation by operation as the third body spells it. -/
def kProj (v27 : FVec Ideal S5000x128 .f32) (v29 : Vec Ideal S128x64 .f32) (v33 : Vec Ideal S1x64 .f32) : FVec Ideal S5000x64 .f32 :=
  have v28 : FVec Ideal S5000x128 .bf16 := truncf .bf16 v27 bitsLt_bf16_f32
  have v30 : FVec Ideal S128x64 .f32 := shapeCast S128x64 v29 shapeCasts_S128x64_S128x64
  have v31 : FVec Ideal S128x64 .bf16 := truncf .bf16 v30 bitsLt_bf16_f32
  have cst_11 : FVec Ideal S5000x64 .f32 := constant S5000x64 .f32 0x00000000#32
  have v32 : FVec Ideal S5000x64 .f32 := matmul dot_S5000x128_S128x64_S5000x64_1_0_0_1_n_n none v28 v31 cst_11
  have v34 : FVec Ideal S1x64 .f32 := shapeCast S1x64 v33 shapeCasts_S1x64_S1x64
  have v35 : FVec Ideal S5000x64 .f32 := broadcastTo S5000x64 v34 broadcasts_S1x64_S5000x64
  have v36 : FVec Ideal S5000x64 .f32 := addf v32 v35
  have v37 : FVec Ideal S5000x64 .f32 := logistic v36
  v37

/-- A one-row array broadcast along the rows reads, at `(p, q)`, the row at `(0, q)`. -/
theorem biasRowBroadcast_apply {A B : Nat} {α : Type} (v : (⟨2, ![1, B]⟩ : Shape).Idx → α)
    (h : (⟨2, ![1, B]⟩ : Shape).Broadcasts ⟨2, ![A, B]⟩) (hB : B ≠ 1) (p : Fin A) (q : Fin B) :
    broadcastTo ⟨2, ![A, B]⟩ v h (ix2 p q) = v (ix2 0 q) := by
  refine broadcastTo_apply v h (ix2 p q) (ix2 0 q) fun a => ?_
  match a with
  | ⟨0, _⟩ => exact (if_pos rfl).symm
  | ⟨1, _⟩ => exact (if_neg hB).symm

/-- The product of the block with the weights into the zero word, at `(p, q)`: the sum over the 128 lanes. -/
theorem kProj_dot_apply (a : FVec Ideal S5000x128 .bf16) (b : FVec Ideal S128x64 .bf16) (p : Fin 5000) (q : Fin 64) :
    matmul dot_S5000x128_S128x64_S5000x64_1_0_0_1_n_n none a b (constant S5000x64 .f32 0x00000000#32) (ix2 p q)
      = ∑ k : Fin 128, a (ix2 p k) * b (ix2 k q) := by
  rw [Cert.Lib.Rowwise.eq_plain dot_S5000x128_S128x64_S5000x64_1_0_0_1_n_n rfl rfl rfl rfl rfl rfl]
  exact Cert.Lib.Rowwise.plain_matmul_zero_apply none a b p q

/-- Row by row it is the projection of the specification. -/
theorem kProj_eq (y : FVec Ideal S5000x128 .f32) (Wp : Vec Ideal S128x64 .f32) (bp : Vec Ideal S1x64 .f32) :
    kProj y Wp bp = Spec.Proj y Wp (Spec.lane bp) := by
  funext i
  obtain ⟨p, q, rfl⟩ : ∃ (p : Fin 5000) (q : Fin 64), i = ix2 p q := ⟨i 0, i 1, eq_ix2 i⟩
  rw [Spec.Proj_apply]
  unfold Spec.projRow
  show Ideal.logistic (matmul dot_S5000x128_S128x64_S5000x64_1_0_0_1_n_n none
      (truncf .bf16 y bitsLt_bf16_f32)
      (truncf .bf16 (shapeCast S128x64 Wp shapeCasts_S128x64_S128x64) bitsLt_bf16_f32)
      (constant S5000x64 .f32 0x00000000#32) (ix2 p q)
      + broadcastTo S5000x64 (shapeCast S1x64 bp shapeCasts_S1x64_S1x64) broadcasts_S1x64_S5000x64 (ix2 p q)) = _
  rw [kProj_dot_apply, shapeCast_self, shapeCast_self]
  rw [biasRowBroadcast_apply bp broadcasts_S1x64_S5000x64 (by decide) p q]
  rfl

end Cert.KernelIdeal.Stage

end
-- ==== Proof.KPay.lean ====
/-
  The three kernel bodies' stored values as functions of the blocks they load: the first is the FiLM stage, the
  second the FiLM stage of the normalised block, the third the projection of the normalised block.
-/
import proofs.«105840_j84765474554364_1_alg».proof.Proof.KLn
import proofs.«105840_j84765474554364_1_alg».proof.Proof.KFilm
import proofs.«105840_j84765474554364_1_alg».proof.Proof.KProj

noncomputable section

namespace Cert.KernelIdeal.Stage

open Idealize.ShloMosaic Idealize.ShloMosaic.ValueIdx Cert.KernelIdeal Cert.KernelIdeal.Gen

/-- The second body is the first body's arithmetic applied to the normalised block. -/
theorem pay1_split (h : Vec Ideal S5000x128 .f32) (g b : Vec Ideal S1x128 .f32) (Wt : Vec Ideal S128x128 .f32) (Ft : Vec Ideal S128x256 .f32) :
    k1_pay1 (k1_pay2 (F := Ideal) h g b Wt Ft) (Scalar.ofBits .f32 0x00000000#32) = k0_pay1 (F := Ideal) (kLN h g b) Wt Ft := rfl

/-- The third body is the projection applied to the normalised block. -/
theorem pay2_split (h : Vec Ideal S5000x128 .f32) (g b : Vec Ideal S1x128 .f32) (Wp : Vec Ideal S128x64 .f32) (bp : Vec Ideal S1x64 .f32) :
    k2_pay1 (F := Ideal) h g b Wp bp = kProj (kLN h g b) Wp bp := rfl

theorem pay0 (x : Vec Ideal S5000x128 .f32) (Wt : Vec Ideal S128x128 .f32) (Ft : Vec Ideal S128x256 .f32) :
    k0_pay1 (F := Ideal) x Wt Ft = Spec.Film x Wt Ft := kFilm_eq x Wt Ft

theorem pay1 (h : Vec Ideal S5000x128 .f32) (g b : Vec Ideal S1x128 .f32) (Wt : Vec Ideal S128x128 .f32) (Ft : Vec Ideal S128x256 .f32) :
    k1_pay1 (k1_pay2 (F := Ideal) h g b Wt Ft) (Scalar.ofBits .f32 0x00000000#32)
      = Spec.Film (Spec.LNorm h (Spec.lane g) (Spec.lane b)) Wt Ft := by
  rw [pay1_split, kFilm_eq, kLN_eq]

theorem pay2 (h : Vec Ideal S5000x128 .f32) (g b : Vec Ideal S1x128 .f32) (Wp : Vec Ideal S128x64 .f32) (bp : Vec Ideal S1x64 .f32) :
    k2_pay1 (F := Ideal) h g b Wp bp = Spec.Proj (Spec.LNorm h (Spec.lane g) (Spec.lane b)) Wp (Spec.lane bp) := by
  rw [pay2_split, kProj_eq, kLN_eq]

end Cert.KernelIdeal.Stage

end
-- ==== Proof.SpecRows.lean ====
/-
  Each whole-array function of the specification depends, at an index, only on the row the index lies in: two
  arrays that agree along one row give the same value there.  This is what lets a block of rows be treated by
  itself.
-/
import proofs.«105840_j84765474554364_1_alg».proof.Proof.Spec

noncomputable section

namespace Cert.Spec

open Idealize.ShloMosaic Idealize.ShloMosaic.ValueIdx

/-- The FiLM stage at an index of one array equals that of another array at an index in the same lane whose row
    agrees. -/
theorem Film_congr_row {n n' : Nat} (X : A2 n 128) (Y : A2 n' 128) (Wt : A2 128 128) (Ft : A2 128 256)
    (i : (⟨2, ![n', 128]⟩ : Shape).Idx) (i' : (⟨2, ![n, 128]⟩ : Shape).Idx)
    (hrow : ∀ k : Fin 128, Y (ix2 (i 0) k) = X (ix2 (i' 0) k)) (hq : (i 1 : Fin 128) = (i' 1 : Fin 128)) :
    Film Y Wt Ft i = Film X Wt Ft i' := by
  unfold Film
  rw [show row Y (i 0) = row X (i' 0) from funext hrow, hq]

/-- The same for the normalisation. -/
theorem LNorm_congr_row {n n' : Nat} (X : A2 n 128) (Y : A2 n' 128) (g b : Fin 128 → EReal)
    (i : (⟨2, ![n', 128]⟩ : Shape).Idx) (i' : (⟨2, ![n, 128]⟩ : Shape).Idx)
    (hrow : ∀ k : Fin 128, Y (ix2 (i 0) k) = X (ix2 (i' 0) k)) (hq : (i 1 : Fin 128) = (i' 1 : Fin 128)) :
    LNorm Y g b i = LNorm X g b i' := by
  unfold LNorm
  rw [show row Y (i 0) = row X (i' 0) from funext hrow, hq]

/-- The same for the projection. -/
theorem Proj_congr_row {n n' : Nat} (X : A2 n 128) (Y : A2 n' 128) (Wpt : A2 128 64) (bp : Fin 64 → EReal)
    (i : (⟨2, ![n', 64]⟩ : Shape).Idx) (i' : (⟨2, ![n, 64]⟩ : Shape).Idx)
    (hrow : ∀ k : Fin 128, Y (ix2 (i 0) k) = X (ix2 (i' 0) k)) (hq : (i 1 : Fin 64) = (i' 1 : Fin 64)) :
    Proj Y Wpt bp i = Proj X Wpt bp i' := by
  unfold Proj
  rw [show row Y (i 0) = row X (i' 0) from funext hrow, hq]

end Cert.Spec

end
-- ==== Proof.Region0.lean ====
/-
  The first region, from its entry contents to its result array.  Point `t` of the grid of ten stages rows
  `5000 t … 5000 t + 4999` of the input array and both weight arrays whole, and writes back the FiLM stage of that
  block to the same rows of the result.  The FiLM stage acts on each row by itself, so block `t` of the FiLM
  stage of the whole array is the FiLM stage of block `t`; the ten blocks tile the 50000 rows.
-/
import proofs.«105840_j84765474554364_1_alg».proof.Proof.Gen.KernelIdeal.Frame
import proofs.«105840_j84765474554364_1_alg».proof.Proof.KPay
import proofs.«105840_j84765474554364_1_alg».proof.Proof.SpecRows
import Idealize.ShloMosaic.Lib.Pipeline.Value

set_option maxRecDepth 16384

noncomputable section

namespace Cert.KernelIdeal.Region

open Idealize.ShloMosaic Idealize.ShloMosaic.TcCoe Idealize.ShloMosaic.ValueIdx Idealize.SL.Sem
open Cert.KernelIdeal Cert.KernelIdeal.Gen
open Idealize.ShloMosaic.Pipeline (Dat Cfg Window)

-- the TensorCore's buffer contents when the region is entered
variable (V : (c : Dev nD) → (b : Ref sig .tc) → Buf (Elt Ideal) ((c : Thread nD τ).loc b))

/-- The origin of a block, as the constant zero. -/
theorem origin0 : (![0, 0] : Fin 2 → Nat) = fun _ => 0 := funext fun a => by fin_cases a <;> rfl

/-- The block indices over the grid: the row windows are at block `(t, 0)`, the weight windows at `(0, 0)`. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The block of the whole first weight array is the array. -/
theorem weightBlock0_1 (c : Dev nD) (t : Fin cfg0.N) : iblk0 V c 1 t = V c main_v0 := by
  obtain ⟨-, -, e2, e3, -, -, -, -⟩ := index_facts0 t
  funext y
  show V c main_v0 (((cfg0.win 1).blk t).view.emb y) = V c main_v0 y
  congr 1
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The block of the whole second weight array is the array. -/
theorem weightBlock0_2 (c : Dev nD) (t : Fin cfg0.N) : iblk0 V c 2 t = V c main_v1 := by
  obtain ⟨-, -, -, -, e4, e5, -, -⟩ := index_facts0 t
  funext y
  show V c main_v1 (((cfg0.win 2).blk t).view.emb y) = V c main_v1 y
  congr 1
  funext a; apply Fin.ext
  match a with
  | ⟨0, _⟩ => show win0_2.index t (0 : Fin 2) * 128 + 1 * (y 0).val = (y 0).val; omega
  | ⟨1, _⟩ => show win0_2.index t (1 : Fin 2) * 256 + 1 * (y 1).val = (y 1).val; omega

/-- What point `t` writes back is block `t` of the FiLM stage of the whole input array: row `j` of the input block is
    row `5000 t + j` of the array, and the FiLM stage at an index reads only the index's row. -/
theorem flushed0 (c : Dev nD) (t : Fin cfg0.N) :
    (dat0 (F := Ideal) V c).flushed 3 t
      = ((cfg0.win 3).blk t).view.read (Elt Ideal) (Spec.Film (V c main_arg0) (V c main_v0) (V c main_v1)) := by
  show (cfg0.win 3).cut (grid0.coords t) ((dat0 V c).after 3 t) = _
  rw [after0_3]
  unfold out0_3
  rw [View.canon_unit_zero origin0]
  simp only [View.ld_unit_zero (S := S5000x128) origin0, View.ld_unit_zero (S := S128x128) origin0,
    View.ld_unit_zero (S := S128x256) origin0]
  rw [Cert.KernelIdeal.Stage.pay0, weightBlock0_1, weightBlock0_2]
  obtain ⟨e0, e1, -, -, -, -, e6, e7⟩ := index_facts0 t
  funext j
  show Spec.Film (iblk0 V c 0 t) (V c main_v0) (V c main_v1) j
    = Spec.Film (V c main_arg0) (V c main_v0) (V c main_v1) (((cfg0.win 3).blk t).view.emb j)
  refine Spec.Film_congr_row (V c main_arg0) (iblk0 V c 0 t) (V c main_v0) (V c main_v1) j
    (((cfg0.win 3).blk t).view.emb j) ?_ ?_
  · intro k
    show V c main_arg0 (((cfg0.win 0).blk t).view.emb (ix2 (j 0) k))
      = V c main_arg0 (ix2 ((((cfg0.win 3).blk t).view.emb j) 0) k)
    congr 1
    funext a; apply Fin.ext
    match a with
    | ⟨0, _⟩ =>
      show win0_0.index t (0 : Fin 2) * 5000 + 1 * (j 0).val = win0_3.index t (0 : Fin 2) * 5000 + 1 * (j 0).val
      omega
    | ⟨1, _⟩ => show win0_0.index t (1 : Fin 2) * 128 + 1 * k.val = k.val; omega
  · apply Fin.ext
    show (j 1).val = win0_3.index t (1 : Fin 2) * 128 + 1 * (j 1).val
    omega

/-- An index of the result array is in point `t`'s block iff each coordinate is in the block's range on its axis. -/
theorem mem_block0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v5).slice (win0_3.rect t)).set ↔ _
  rw [View.set_slice_whole, Rect.mem_set_unit]
  exact Iff.rfl

/-- The ten blocks tile the rows: the index in row `r` lies in the block of point `r / 5000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  let t : Fin cfg0.N := ⟨(i 0).val / 5000, by show (i 0).val / 5000 < 10; omega⟩
  have ht : t.val = (i 0).val / 5000 := rfl
  obtain ⟨-, -, -, -, -, -, e6, e7⟩ := index_facts0 t
  refine ⟨t, flush0_3 t, ?_⟩
  rw [mem_block0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- After the region its result array holds the FiLM stage of the input array as the region found it. -/
theorem arr0 (c : Dev nD) :
    (dat0 (F := Ideal) V c).arrAt 3 cfg0.N = Spec.Film (V c main_arg0) (V c main_v0) (V c main_v1) :=
  (dat0 V c).arrAt_eq_of_cover 3 _ (fun t _ => flushed0 V c t) cover0

end Cert.KernelIdeal.Region

end
-- ==== Proof.Region1.lean ====
/-
  The second region, from its entry contents to its result array.  Point `t` of the grid of ten stages rows
  `5000 t … 5000 t + 4999` of the aggregated array, the scale and shift rows and both weight arrays whole, and
  writes back the FiLM stage of the normalised block.  Both act on each row by itself, so block `t` of the
  whole-array function is the function of block `t`; the ten blocks tile the 50000 rows.
-/
import proofs.«105840_j84765474554364_1_alg».proof.Proof.Gen.KernelIdeal.Frame
import proofs.«105840_j84765474554364_1_alg».proof.Proof.KPay
import proofs.«105840_j84765474554364_1_alg».proof.Proof.SpecRows
import Idealize.ShloMosaic.Lib.Pipeline.Value

set_option maxRecDepth 16384

noncomputable section

namespace Cert.KernelIdeal.Region

open Idealize.ShloMosaic Idealize.ShloMosaic.TcCoe Idealize.ShloMosaic.ValueIdx Idealize.SL.Sem
open Cert.KernelIdeal Cert.KernelIdeal.Gen
open Idealize.ShloMosaic.Pipeline (Dat Cfg Window)

-- the TensorCore's buffer contents when the region is entered
variable (V : (c : Dev nD) → (b : Ref sig .tc) → Buf (Elt Ideal) ((c : Thread nD τ).loc b))

/-- The origin of a block, as the constant zero. -/
theorem origin1 : (![0, 0] : Fin 2 → Nat) = fun _ => 0 := funext fun a => by fin_cases a <;> rfl

/-- The block indices over the grid: the row windows are at block `(t, 0)`, the whole windows at `(0, 0)`. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The block of the whole scale row is the row. -/
theorem wholeBlock1_1 (c : Dev nD) (t : Fin cfg1.N) : iblk1 V c 1 t = V c main_v16 := by
  obtain ⟨-, -, e2, e3, -, -, -, -, -, -, -, -⟩ := index_facts1 t
  funext y
  show V c main_v16 (((cfg1.win 1).blk t).view.emb y) = V c main_v16 y
  congr 1
  funext a; apply Fin.ext
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- The block of the whole shift row is the row. -/
theorem wholeBlock1_2 (c : Dev nD) (t : Fin cfg1.N) : iblk1 V c 2 t = V c main_v17 := by
  obtain ⟨-, -, -, -, e4, e5, -, -, -, -, -, -⟩ := index_facts1 t
  funext y
  show V c main_v17 (((cfg1.win 2).blk t).view.emb y) = V c main_v17 y
  congr 1
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The block of the whole first weight array is the array. -/
theorem wholeBlock1_3 (c : Dev nD) (t : Fin cfg1.N) : iblk1 V c 3 t = V c main_v2 := by
  obtain ⟨-, -, -, -, -, -, e6, e7, -, -, -, -⟩ := index_facts1 t
  funext y
  show V c main_v2 (((cfg1.win 3).blk t).view.emb y) = V c main_v2 y
  congr 1
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The block of the whole second weight array is the array. -/
theorem wholeBlock1_4 (c : Dev nD) (t : Fin cfg1.N) : iblk1 V c 4 t = V c main_v3 := by
  obtain ⟨-, -, -, -, -, -, -, -, e8, e9, -, -⟩ := index_facts1 t
  funext y
  show V c main_v3 (((cfg1.win 4).blk t).view.emb y) = V c main_v3 y
  congr 1
  funext a; apply Fin.ext
  match a with
  | ⟨0, _⟩ => show win1_4.index t (0 : Fin 2) * 128 + 1 * (y 0).val = (y 0).val; omega
  | ⟨1, _⟩ => show win1_4.index t (1 : Fin 2) * 256 + 1 * (y 1).val = (y 1).val; omega

/-- What point `t` writes back is block `t` of the FiLM stage of the normalised whole input array: row `j` of the
    input block is row `5000 t + j` of the array, and both the normalisation and the FiLM stage at an index read
    only the index's row. -/
theorem flushed1 (c : Dev nD) (t : Fin cfg1.N) :
    (dat1 (F := Ideal) V c).flushed 5 t
      = ((cfg1.win 5).blk t).view.read (Elt Ideal)
          (Spec.Film (Spec.LNorm (V c main_v15) (Spec.lane (V c main_v16)) (Spec.lane (V c main_v17))) (V c main_v2) (V c main_v3)) := by
  show (cfg1.win 5).cut (grid1.coords t) ((dat1 V c).after 5 t) = _
  rw [after1_5]
  unfold out1_5
  rw [View.canon_unit_zero origin1]
  simp only [View.ld_unit_zero (S := S5000x128) origin1, View.ld_unit_zero (S := S1x128) origin1,
    View.ld_unit_zero (S := S128x128) origin1, View.ld_unit_zero (S := S128x256) origin1]
  rw [Cert.KernelIdeal.Stage.pay1, wholeBlock1_1, wholeBlock1_2, wholeBlock1_3, wholeBlock1_4]
  obtain ⟨e0, e1, -, -, -, -, -, -, -, -, e10, e11⟩ := index_facts1 t
  funext j
  show Spec.Film (Spec.LNorm (iblk1 V c 0 t) (Spec.lane (V c main_v16)) (Spec.lane (V c main_v17))) (V c main_v2) (V c main_v3) j
    = Spec.Film (Spec.LNorm (V c main_v15) (Spec.lane (V c main_v16)) (Spec.lane (V c main_v17))) (V c main_v2) (V c main_v3)
        (((cfg1.win 5).blk t).view.emb j)
  refine Spec.Film_congr_row (Spec.LNorm (V c main_v15) (Spec.lane (V c main_v16)) (Spec.lane (V c main_v17)))
    (Spec.LNorm (iblk1 V c 0 t) (Spec.lane (V c main_v16)) (Spec.lane (V c main_v17))) (V c main_v2) (V c main_v3) j
    (((cfg1.win 5).blk t).view.emb j) ?_ ?_
  · intro k
    refine Spec.LNorm_congr_row (V c main_v15) (iblk1 V c 0 t) (Spec.lane (V c main_v16)) (Spec.lane (V c main_v17))
      (ix2 (j 0) k) (ix2 ((((cfg1.win 5).blk t).view.emb j) 0) k) ?_ rfl
    intro k'
    show V c main_v15 (((cfg1.win 0).blk t).view.emb (ix2 (j 0) k'))
      = V c main_v15 (ix2 ((((cfg1.win 5).blk t).view.emb j) 0) k')
    congr 1
    funext a; apply Fin.ext
    match a with
    | ⟨0, _⟩ =>
      show win1_0.index t (0 : Fin 2) * 5000 + 1 * (j 0).val = win1_5.index t (0 : Fin 2) * 5000 + 1 * (j 0).val
      omega
    | ⟨1, _⟩ => show win1_0.index t (1 : Fin 2) * 128 + 1 * k'.val = k'.val; omega
  · apply Fin.ext
    show (j 1).val = win1_5.index t (1 : Fin 2) * 128 + 1 * (j 1).val
    omega

/-- An index of the result array is in point `t`'s block iff each coordinate is in the block's range on its axis. -/
theorem mem_block1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v18).slice (win1_5.rect t)).set ↔ _
  rw [View.set_slice_whole, Rect.mem_set_unit]
  exact Iff.rfl

/-- The ten blocks tile the rows: the index in row `r` lies in the block of point `r / 5000`. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 5000, by show (i 0).val / 5000 < 10; omega⟩
  have ht : t.val = (i 0).val / 5000 := rfl
  obtain ⟨-, -, -, -, -, -, -, -, -, -, e10, e11⟩ := index_facts1 t
  refine ⟨t, flush1_5 t, ?_⟩
  rw [mem_block1]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- After the region its result array holds the FiLM stage of the normalised input array. -/
theorem arr1 (c : Dev nD) :
    (dat1 (F := Ideal) V c).arrAt 5 cfg1.N
      = Spec.Film (Spec.LNorm (V c main_v15) (Spec.lane (V c main_v16)) (Spec.lane (V c main_v17))) (V c main_v2) (V c main_v3) :=
  (dat1 V c).arrAt_eq_of_cover 5 _ (fun t _ => flushed1 V c t) cover1

end Cert.KernelIdeal.Region

end
-- ==== Proof.Region2.lean ====
/-
  The third region, from its entry contents to its result array.  Point `t` of the grid of ten stages rows
  `5000 t … 5000 t + 4999` of the aggregated array, the scale, shift and bias rows and the weight array whole, and
  writes back the projection of the normalised block to the same rows of the 64-lane result.  Both act on each row
  by itself, so block `t` of the whole-array function is the function of block `t`; the ten blocks tile the
  50000 rows.
-/
import proofs.«105840_j84765474554364_1_alg».proof.Proof.Gen.KernelIdeal.Frame
import proofs.«105840_j84765474554364_1_alg».proof.Proof.KPay
import proofs.«105840_j84765474554364_1_alg».proof.Proof.SpecRows
import Idealize.ShloMosaic.Lib.Pipeline.Value

set_option maxRecDepth 16384

noncomputable section

namespace Cert.KernelIdeal.Region

open Idealize.ShloMosaic Idealize.ShloMosaic.TcCoe Idealize.ShloMosaic.ValueIdx Idealize.SL.Sem
open Cert.KernelIdeal Cert.KernelIdeal.Gen
open Idealize.ShloMosaic.Pipeline (Dat Cfg Window)

-- the TensorCore's buffer contents when the region is entered
variable (V : (c : Dev nD) → (b : Ref sig .tc) → Buf (Elt Ideal) ((c : Thread nD τ).loc b))

/-- The origin of a block, as the constant zero. -/
theorem origin2 : (![0, 0] : Fin 2 → Nat) = fun _ => 0 := funext fun a => by fin_cases a <;> rfl

/-- The block indices over the grid: the row windows are at block `(t, 0)`, the whole windows at `(0, 0)`. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The block of the whole scale row is the row. -/
theorem wholeBlock2_1 (c : Dev nD) (t : Fin cfg2.N) : iblk2 V c 1 t = V c main_v29 := by
  obtain ⟨-, -, e2, e3, -, -, -, -, -, -, -, -⟩ := index_facts2 t
  funext y
  show V c main_v29 (((cfg2.win 1).blk t).view.emb y) = V c main_v29 y
  congr 1
  funext a; apply Fin.ext
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- The block of the whole shift row is the row. -/
theorem wholeBlock2_2 (c : Dev nD) (t : Fin cfg2.N) : iblk2 V c 2 t = V c main_v30 := by
  obtain ⟨-, -, -, -, e4, e5, -, -, -, -, -, -⟩ := index_facts2 t
  funext y
  show V c main_v30 (((cfg2.win 2).blk t).view.emb y) = V c main_v30 y
  congr 1
  funext a; apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The block of the whole weight array is the array. -/
theorem wholeBlock2_3 (c : Dev nD) (t : Fin cfg2.N) : iblk2 V c 3 t = V c main_v4 := by
  obtain ⟨-, -, -, -, -, -, e6, e7, -, -, -, -⟩ := index_facts2 t
  funext y
  show V c main_v4 (((cfg2.win 3).blk t).view.emb y) = V c main_v4 y
  congr 1
  funext a; apply Fin.ext
  match a with
  | ⟨0, _⟩ => show win2_3.index t (0 : Fin 2) * 128 + 1 * (y 0).val = (y 0).val; omega
  | ⟨1, _⟩ => show win2_3.index t (1 : Fin 2) * 64 + 1 * (y 1).val = (y 1).val; omega

/-- The block of the whole bias row is the row. -/
theorem wholeBlock2_4 (c : Dev nD) (t : Fin cfg2.N) : iblk2 V c 4 t = V c main_v31 := by
  obtain ⟨-, -, -, -, -, -, -, -, e8, e9, -, -⟩ := index_facts2 t
  funext y
  show V c main_v31 (((cfg2.win 4).blk t).view.emb y) = V c main_v31 y
  congr 1
  funext a; apply Fin.ext
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- What point `t` writes back is block `t` of the projection of the normalised whole array: row `j` of the input
    block is row `5000 t + j` of the array, and both the normalisation and the projection at an index read only the
    index's row. -/
theorem flushed2 (c : Dev nD) (t : Fin cfg2.N) :
    (dat2 (F := Ideal) V c).flushed 5 t
      = ((cfg2.win 5).blk t).view.read (Elt Ideal)
          (Spec.Proj (Spec.LNorm (V c main_v28) (Spec.lane (V c main_v29)) (Spec.lane (V c main_v30))) (V c main_v4) (Spec.lane (V c main_v31))) := by
  show (cfg2.win 5).cut (grid2.coords t) ((dat2 V c).after 5 t) = _
  rw [after2_5]
  unfold out2_5
  rw [View.canon_unit_zero origin2]
  simp only [View.ld_unit_zero (S := S5000x128) origin2, View.ld_unit_zero (S := S1x128) origin2,
    View.ld_unit_zero (S := S128x64) origin2, View.ld_unit_zero (S := S1x64) origin2]
  rw [Cert.KernelIdeal.Stage.pay2, wholeBlock2_1, wholeBlock2_2, wholeBlock2_3, wholeBlock2_4]
  obtain ⟨e0, e1, -, -, -, -, -, -, -, -, e10, e11⟩ := index_facts2 t
  funext j
  show Spec.Proj (Spec.LNorm (iblk2 V c 0 t) (Spec.lane (V c main_v29)) (Spec.lane (V c main_v30))) (V c main_v4)
      (Spec.lane (V c main_v31)) j
    = Spec.Proj (Spec.LNorm (V c main_v28) (Spec.lane (V c main_v29)) (Spec.lane (V c main_v30))) (V c main_v4)
      (Spec.lane (V c main_v31)) (((cfg2.win 5).blk t).view.emb j)
  refine Spec.Proj_congr_row (Spec.LNorm (V c main_v28) (Spec.lane (V c main_v29)) (Spec.lane (V c main_v30)))
    (Spec.LNorm (iblk2 V c 0 t) (Spec.lane (V c main_v29)) (Spec.lane (V c main_v30))) (V c main_v4)
    (Spec.lane (V c main_v31)) j (((cfg2.win 5).blk t).view.emb j) ?_ ?_
  · intro k
    refine Spec.LNorm_congr_row (V c main_v28) (iblk2 V c 0 t) (Spec.lane (V c main_v29)) (Spec.lane (V c main_v30))
      (ix2 (j 0) k) (ix2 ((((cfg2.win 5).blk t).view.emb j) 0) k) ?_ rfl
    intro k'
    show V c main_v28 (((cfg2.win 0).blk t).view.emb (ix2 (j 0) k'))
      = V c main_v28 (ix2 ((((cfg2.win 5).blk t).view.emb j) 0) k')
    congr 1
    funext a; apply Fin.ext
    match a with
    | ⟨0, _⟩ =>
      show win2_0.index t (0 : Fin 2) * 5000 + 1 * (j 0).val = win2_5.index t (0 : Fin 2) * 5000 + 1 * (j 0).val
      omega
    | ⟨1, _⟩ => show win2_0.index t (1 : Fin 2) * 128 + 1 * k'.val = k'.val; omega
  · apply Fin.ext
    show (j 1).val = win2_5.index t (1 : Fin 2) * 64 + 1 * (j 1).val
    omega

/-- An index of the result array is in point `t`'s block iff each coordinate is in the block's range on its axis. -/
theorem mem_block2 (t : Fin cfg2.N) (i : S50000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v32).slice (win2_5.rect t)).set ↔ _
  rw [View.set_slice_whole, Rect.mem_set_unit]
  exact Iff.rfl

/-- The ten blocks tile the rows: the index in row `r` lies in the block of point `r / 5000`. -/
theorem cover2 (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  let t : Fin cfg2.N := ⟨(i 0).val / 5000, by show (i 0).val / 5000 < 10; omega⟩
  have ht : t.val = (i 0).val / 5000 := rfl
  obtain ⟨-, -, -, -, -, -, -, -, -, -, e10, e11⟩ := index_facts2 t
  refine ⟨t, flush2_5 t, ?_⟩
  rw [mem_block2]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 64 ≤ (i 1).val ∧ (i 1).val < win2_5.index t (1 : Fin 2) * 64 + 64
    omega

/-- After the region its result array holds the projection of the normalised input array. -/
theorem arr2 (c : Dev nD) :
    (dat2 (F := Ideal) V c).arrAt 5 cfg2.N
      = Spec.Proj (Spec.LNorm (V c main_v28) (Spec.lane (V c main_v29)) (Spec.lane (V c main_v30))) (V c main_v4) (Spec.lane (V c main_v31)) := by
  exact (dat2 V c).arrAt_eq_of_cover 5 _ (fun t _ => flushed2 V c t) cover2

end Cert.KernelIdeal.Region

end
-- ==== Proof.KAgg.lean ====
/-
  The edge aggregation as the kernel program's host code spells it between its regions: negative source indices
  are wrapped by the row count, the message rows are gathered at the sources and added into a zero array at the
  destinations.  The reference does this step with the same host operations, so it is carried as one function and
  never opened.
-/
import proofs.«105840_j84765474554364_1_alg».proof.KernelIdeal
import proofs.«105840_j84765474554364_1_alg».proof.Proof.Gen.KernelIdeal
import Idealize.ShloMosaic.PureOps.Ideal

noncomputable section

namespace Cert.KernelIdeal.Stage

open Idealize.ShloMosaic Cert.KernelIdeal Cert.KernelIdeal.Gen

/-- The gather at `src` and scatter-add at `dst` of a message array. -/
def kAgg (msg : FVec Ideal S50000x128 .f32) (src dst : (⟨S600000, .i32⟩ : BufTy).Contents (Elt Ideal)) : FVec Ideal S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst)
    (Host.gather gather_S50000x128_S600000x1_S600000x128_1_0_n_n_0_1_1128 msg
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

end Cert.KernelIdeal.Stage

end
-- ==== Proof.SpecNet.lean ====
/-
  The whole network as one function of its inputs: FiLM stage, aggregation, normalisation, FiLM stage,
  aggregation, normalisation, projection.  The aggregation over the edges is a parameter: both programs do it with
  the same host operations, and nothing here looks inside it.  Also: a vector reshaped to a one-row array has that
  vector as its only row.
-/
import proofs.«105840_j84765474554364_1_alg».proof.Proof.Spec
import Idealize.ShloMosaic.Lib.Pipeline.Value

noncomputable section

namespace Cert.Spec

open Idealize.ShloMosaic Idealize.ShloMosaic.ValueIdx

/-- Two FiLM layers, each followed by the aggregation `agg` and a normalisation, then the projection. -/
def Net (agg : A2 50000 128 → A2 50000 128) (x : A2 50000 128)
    (W1t : A2 128 128) (F1t : A2 128 256) (g1 b1 : Fin 128 → EReal)
    (W2t : A2 128 128) (F2t : A2 128 256) (g2 b2 : Fin 128 → EReal)
    (Wpt : A2 128 64) (bp : Fin 64 → EReal) : A2 50000 64 :=
  Proj (LNorm (agg (Film (LNorm (agg (Film x W1t F1t)) g1 b1) W2t F2t)) g2 b2) Wpt bp

/-- The only row of a length-`n` vector reshaped to `[1, n]` is the vector. -/
theorem lane_reshape {n : Nat} (v : A1 n) (h : (⟨1, ![n]⟩ : Shape).ShapeCasts ⟨2, ![1, n]⟩) :
    lane (shapeCast ⟨2, ![1, n]⟩ v h) = coord v := by
  funext k
  refine shapeCast_apply v h (ix2 0 k) (ix1 k) ?_
  rw [Shape.rowMajor_val_one, Shape.rowMajor_val_two]
  show k.val = 0 * n + k.val
  omega

end Cert.Spec

end
-- ==== Proof.Fold.lean ====
/-
  The buffer contents at the boundaries of the idealized kernel program's @main, read where the next segment
  needs them, down to the result: the host code before the first region transposes the weights; each region
  leaves in its result array the stage of the specification applied to what it found (the three region modules);
  the host code between regions aggregates over the edges and reshapes the scale, shift and bias vectors to one-row
  arrays; no segment writes an argument.  Composed, the result array after the last region is the network of the
  specification applied to the arguments.
-/
import proofs.«105840_j84765474554364_1_alg».proof.Proof.Gen.KernelIdeal.Frame
import proofs.«105840_j84765474554364_1_alg».proof.Proof.Region0
import proofs.«105840_j84765474554364_1_alg».proof.Proof.Region1
import proofs.«105840_j84765474554364_1_alg».proof.Proof.Region2
import proofs.«105840_j84765474554364_1_alg».proof.Proof.KAgg
import proofs.«105840_j84765474554364_1_alg».proof.Proof.SpecNet
import Idealize.ShloMosaic.Lib.StableHlo.Run

set_option maxRecDepth 16384

noncomputable section

namespace Cert.KernelIdeal.Fold

open Idealize.ShloMosaic Idealize.ShloMosaic.TcCoe Idealize.ShloMosaic.StableHlo Idealize.SL.Sem
open Cert.KernelIdeal Cert.KernelIdeal.Gen Cert.KernelIdeal.Stage

variable (m : (ℓ : Loc nD τ sig) → Buf (Elt Ideal) ℓ) (ρ : Dev nD → PrngReg)

/-! ## Before the first region: the weights transposed, the arguments as launched -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W1_arg6 (c : Dev nD) : W1 m ρ c (Proc.devRef .tc main_arg6) = m ((c : Thread nD τ).loc main_arg6) := by
  show StableHlo.after hostOps0 (W0 m ρ c) (Proc.devRef .tc main_arg6) = _
  after_results
theorem W1_arg9 (c : Dev nD) : W1 m ρ c (Proc.devRef .tc main_arg9) = m ((c : Thread nD τ).loc main_arg9) := by
  show StableHlo.after hostOps0 (W0 m ρ c) (Proc.devRef .tc main_arg9) = _
  after_results
theorem W1_arg10 (c : Dev nD) : W1 m ρ c (Proc.devRef .tc main_arg10) = m ((c : Thread nD τ).loc main_arg10) := by
  show StableHlo.after hostOps0 (W0 m ρ c) (Proc.devRef .tc main_arg10) = _
  after_results
theorem W1_arg12 (c : Dev nD) : W1 m ρ c (Proc.devRef .tc main_arg12) = m ((c : Thread nD τ).loc main_arg12) := by
  show StableHlo.after hostOps0 (W0 m ρ c) (Proc.devRef .tc main_arg12) = _
  after_results

theorem W1_v0 (c : Dev nD) : W1 m ρ c (Proc.devRef .tc main_v0)
    = transpose S128x128 [1, 0] (m ((c : Thread nD τ).loc main_arg3)) transposes_S128x128_S128x128_1_0 := by
  show StableHlo.after hostOps0 (W0 m ρ c) (Proc.devRef .tc main_v0) = _
  after_results
theorem W1_v1 (c : Dev nD) : W1 m ρ c (Proc.devRef .tc main_v1)
    = transpose S128x256 [1, 0] (m ((c : Thread nD τ).loc main_arg4)) transposes_S256x128_S128x256_1_0 := by
  show StableHlo.after hostOps0 (W0 m ρ c) (Proc.devRef .tc main_v1) = _
  after_results
theorem W1_v2 (c : Dev nD) : W1 m ρ c (Proc.devRef .tc main_v2)
    = transpose S128x128 [1, 0] (m ((c : Thread nD τ).loc main_arg7)) transposes_S128x128_S128x128_1_0 := by
  show StableHlo.after hostOps0 (W0 m ρ c) (Proc.devRef .tc main_v2) = _
  after_results
theorem W1_v3 (c : Dev nD) : W1 m ρ c (Proc.devRef .tc main_v3)
    = transpose S128x256 [1, 0] (m ((c : Thread nD τ).loc main_arg8)) transposes_S256x128_S128x256_1_0 := by
  show StableHlo.after hostOps0 (W0 m ρ c) (Proc.devRef .tc main_v3) = _
  after_results
theorem W1_v4 (c : Dev nD) : W1 m ρ c (Proc.devRef .tc main_v4)
    = transpose S128x64 [1, 0] (m ((c : Thread nD τ).loc main_arg11)) transposes_S64x128_S128x64_1_0 := by
  show StableHlo.after hostOps0 (W0 m ρ c) (Proc.devRef .tc main_v4) = _
  after_results

/-! ## After the first region -/

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg12 (c : Dev nD) : W2 m ρ c (Proc.devRef .tc main_arg12) = m ((c : Thread nD τ).loc main_arg12) :=
  (W2_of_ne m ρ c main_arg12 (by decide)).trans (W1_arg12 m ρ c)

theorem W2_v2 (c : Dev nD) : W2 m ρ c (Proc.devRef .tc main_v2)
    = transpose S128x128 [1, 0] (m ((c : Thread nD τ).loc main_arg7)) transposes_S128x128_S128x128_1_0 :=
  (W2_of_ne m ρ c main_v2 (by decide)).trans (W1_v2 m ρ c)
theorem W2_v3 (c : Dev nD) : W2 m ρ c (Proc.devRef .tc main_v3)
    = transpose S128x256 [1, 0] (m ((c : Thread nD τ).loc main_arg8)) transposes_S256x128_S128x256_1_0 :=
  (W2_of_ne m ρ c main_v3 (by decide)).trans (W1_v3 m ρ c)
theorem W2_v4 (c : Dev nD) : W2 m ρ c (Proc.devRef .tc main_v4)
    = transpose S128x64 [1, 0] (m ((c : Thread nD τ).loc main_arg11)) transposes_S64x128_S128x64_1_0 :=
  (W2_of_ne m ρ c main_v4 (by decide)).trans (W1_v4 m ρ c)

/-- The first region's result: the FiLM stage of the features with the transposed first-layer weights. -/
theorem W2_v5 (c : Dev nD) : W2 m ρ c (Proc.devRef .tc main_v5)
    = Spec.Film (m ((c : Thread nD τ).loc main_arg0))
        (transpose S128x128 [1, 0] (m ((c : Thread nD τ).loc main_arg3)) transposes_S128x128_S128x128_1_0)
        (transpose S128x256 [1, 0] (m ((c : Thread nD τ).loc main_arg4)) transposes_S256x128_S128x256_1_0) := by
  refine ((W2_arr m ρ c 3).trans (Cert.KernelIdeal.Region.arr0 (V1 m ρ) c)).trans ?_
  rw [show V1 m ρ c main_arg0 = _ from W1_arg0 m ρ c, show V1 m ρ c main_v0 = _ from W1_v0 m ρ c,
    show V1 m ρ c main_v1 = _ from W1_v1 m ρ c]

/-! ## Before the second region: the first aggregation, the scale and shift reshaped -/

theorem W3_arg1 (c : Dev nD) : W3 m ρ c (Proc.devRef .tc main_arg1) = m ((c : Thread nD τ).loc main_arg1) := by
  show StableHlo.after hostOps1 (W2 m ρ c) (Proc.devRef .tc main_arg1) = _
  after_results
  exact W2_arg1 m ρ c
theorem W3_arg2 (c : Dev nD) : W3 m ρ c (Proc.devRef .tc main_arg2) = m ((c : Thread nD τ).loc main_arg2) := by
  show StableHlo.after hostOps1 (W2 m ρ c) (Proc.devRef .tc main_arg2) = _
  after_results
  exact W2_arg2 m ρ c
theorem W3_arg9 (c : Dev nD) : W3 m ρ c (Proc.devRef .tc main_arg9) = m ((c : Thread nD τ).loc main_arg9) := by
  show StableHlo.after hostOps1 (W2 m ρ c) (Proc.devRef .tc main_arg9) = _
  after_results
  exact W2_arg9 m ρ c
theorem W3_arg10 (c : Dev nD) : W3 m ρ c (Proc.devRef .tc main_arg10) = m ((c : Thread nD τ).loc main_arg10) := by
  show StableHlo.after hostOps1 (W2 m ρ c) (Proc.devRef .tc main_arg10) = _
  after_results
  exact W2_arg10 m ρ c
theorem W3_arg12 (c : Dev nD) : W3 m ρ c (Proc.devRef .tc main_arg12) = m ((c : Thread nD τ).loc main_arg12) := by
  show StableHlo.after hostOps1 (W2 m ρ c) (Proc.devRef .tc main_arg12) = _
  after_results
  exact W2_arg12 m ρ c

theorem W3_v15 (c : Dev nD) : W3 m ρ c (Proc.devRef .tc main_v15)
    = kAgg (W2 m ρ c (Proc.devRef .tc main_v5)) (m ((c : Thread nD τ).loc main_arg1)) (m ((c : Thread nD τ).loc main_arg2)) := by
  show StableHlo.after hostOps1 (W2 m ρ c) (Proc.devRef .tc main_v15) = _
  after_results
  rw [W2_arg1, W2_arg2]
  rfl
theorem W3_v16 (c : Dev nD) : W3 m ρ c (Proc.devRef .tc main_v16)
    = shapeCast S1x128 (m ((c : Thread nD τ).loc main_arg5)) shapeCasts_S128_S1x128 := by
  show StableHlo.after hostOps1 (W2 m ρ c) (Proc.devRef .tc main_v16) = _
  after_results
  rw [W2_arg5]
  rfl
theorem W3_v17 (c : Dev nD) : W3 m ρ c (Proc.devRef .tc main_v17)
    = shapeCast S1x128 (m ((c : Thread nD τ).loc main_arg6)) shapeCasts_S128_S1x128 := by
  show StableHlo.after hostOps1 (W2 m ρ c) (Proc.devRef .tc main_v17) = _
  after_results
  rw [W2_arg6]
  rfl
theorem W3_v2 (c : Dev nD) : W3 m ρ c (Proc.devRef .tc main_v2)
    = transpose S128x128 [1, 0] (m ((c : Thread nD τ).loc main_arg7)) transposes_S128x128_S128x128_1_0 := by
  show StableHlo.after hostOps1 (W2 m ρ c) (Proc.devRef .tc main_v2) = _
  after_results
  exact W2_v2 m ρ c
theorem W3_v3 (c : Dev nD) : W3 m ρ c (Proc.devRef .tc main_v3)
    = transpose S128x256 [1, 0] (m ((c : Thread nD τ).loc main_arg8)) transposes_S256x128_S128x256_1_0 := by
  show StableHlo.after hostOps1 (W2 m ρ c) (Proc.devRef .tc main_v3) = _
  after_results
  exact W2_v3 m ρ c
theorem W3_v4 (c : Dev nD) : W3 m ρ c (Proc.devRef .tc main_v4)
    = transpose S128x64 [1, 0] (m ((c : Thread nD τ).loc main_arg11)) transposes_S64x128_S128x64_1_0 := by
  show StableHlo.after hostOps1 (W2 m ρ c) (Proc.devRef .tc main_v4) = _
  after_results
  exact W2_v4 m ρ c

/-! ## After the second region -/

theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W4_arg12 (c : Dev nD) : W4 m ρ c (Proc.devRef .tc main_arg12) = m ((c : Thread nD τ).loc main_arg12) :=
  (W4_of_ne m ρ c main_arg12 (by decide)).trans (W3_arg12 m ρ c)

theorem W4_v4 (c : Dev nD) : W4 m ρ c (Proc.devRef .tc main_v4)
    = transpose S128x64 [1, 0] (m ((c : Thread nD τ).loc main_arg11)) transposes_S64x128_S128x64_1_0 :=
  (W4_of_ne m ρ c main_v4 (by decide)).trans (W3_v4 m ρ c)

/-- The second region's result: the FiLM stage, with the transposed second-layer weights, of the normalised first
    aggregation. -/
theorem W4_v18 (c : Dev nD) : W4 m ρ c (Proc.devRef .tc main_v18)
    = Spec.Film (Spec.LNorm (kAgg (W2 m ρ c (Proc.devRef .tc main_v5)) (m ((c : Thread nD τ).loc main_arg1)) (m ((c : Thread nD τ).loc main_arg2)))
          (Spec.coord (m ((c : Thread nD τ).loc main_arg5))) (Spec.coord (m ((c : Thread nD τ).loc main_arg6))))
        (transpose S128x128 [1, 0] (m ((c : Thread nD τ).loc main_arg7)) transposes_S128x128_S128x128_1_0)
        (transpose S128x256 [1, 0] (m ((c : Thread nD τ).loc main_arg8)) transposes_S256x128_S128x256_1_0) := by
  refine ((W4_arr m ρ c 5).trans (Cert.KernelIdeal.Region.arr1 (V3 m ρ) c)).trans ?_
  rw [show V3 m ρ c main_v15 = _ from W3_v15 m ρ c, show V3 m ρ c main_v16 = _ from W3_v16 m ρ c,
    show V3 m ρ c main_v17 = _ from W3_v17 m ρ c, show V3 m ρ c main_v2 = _ from W3_v2 m ρ c,
    show V3 m ρ c main_v3 = _ from W3_v3 m ρ c, Spec.lane_reshape, Spec.lane_reshape]

/-! ## Before the third region: the second aggregation, the scale, shift and bias reshaped -/

theorem W5_v28 (c : Dev nD) : W5 m ρ c (Proc.devRef .tc main_v28)
    = kAgg (W4 m ρ c (Proc.devRef .tc main_v18)) (m ((c : Thread nD τ).loc main_arg1)) (m ((c : Thread nD τ).loc main_arg2)) := by
  show StableHlo.after hostOps2 (W4 m ρ c) (Proc.devRef .tc main_v28) = _
  after_results
  rw [W4_arg1, W4_arg2]
  rfl
theorem W5_v29 (c : Dev nD) : W5 m ρ c (Proc.devRef .tc main_v29)
    = shapeCast S1x128 (m ((c : Thread nD τ).loc main_arg9)) shapeCasts_S128_S1x128 := by
  show StableHlo.after hostOps2 (W4 m ρ c) (Proc.devRef .tc main_v29) = _
  after_results
  rw [W4_arg9]
  rfl
theorem W5_v30 (c : Dev nD) : W5 m ρ c (Proc.devRef .tc main_v30)
    = shapeCast S1x128 (m ((c : Thread nD τ).loc main_arg10)) shapeCasts_S128_S1x128 := by
  show StableHlo.after hostOps2 (W4 m ρ c) (Proc.devRef .tc main_v30) = _
  after_results
  rw [W4_arg10]
  rfl
theorem W5_v31 (c : Dev nD) : W5 m ρ c (Proc.devRef .tc main_v31)
    = shapeCast S1x64 (m ((c : Thread nD τ).loc main_arg12)) shapeCasts_S64_S1x64 := by
  show StableHlo.after hostOps2 (W4 m ρ c) (Proc.devRef .tc main_v31) = _
  after_results
  rw [W4_arg12]
  rfl
theorem W5_v4 (c : Dev nD) : W5 m ρ c (Proc.devRef .tc main_v4)
    = transpose S128x64 [1, 0] (m ((c : Thread nD τ).loc main_arg11)) transposes_S64x128_S128x64_1_0 := by
  show StableHlo.after hostOps2 (W4 m ρ c) (Proc.devRef .tc main_v4) = _
  after_results
  exact W4_v4 m ρ c

/-! ## The result -/

/-- After the last region the result array holds the network of the specification applied to the arguments, the
    aggregation being the program's own gather and scatter-add at the source and destination arguments. -/
theorem result (c : Dev nD) : W6 m ρ c (Proc.devRef .tc main_v32)
    = Spec.Net (fun msg => kAgg msg (m ((c : Thread nD τ).loc main_arg1)) (m ((c : Thread nD τ).loc main_arg2))) (m ((c : Thread nD τ).loc main_arg0))
        (transpose S128x128 [1, 0] (m ((c : Thread nD τ).loc main_arg3)) transposes_S128x128_S128x128_1_0)
        (transpose S128x256 [1, 0] (m ((c : Thread nD τ).loc main_arg4)) transposes_S256x128_S128x256_1_0)
        (Spec.coord (m ((c : Thread nD τ).loc main_arg5))) (Spec.coord (m ((c : Thread nD τ).loc main_arg6)))
        (transpose S128x128 [1, 0] (m ((c : Thread nD τ).loc main_arg7)) transposes_S128x128_S128x128_1_0)
        (transpose S128x256 [1, 0] (m ((c : Thread nD τ).loc main_arg8)) transposes_S256x128_S128x256_1_0)
        (Spec.coord (m ((c : Thread nD τ).loc main_arg9))) (Spec.coord (m ((c : Thread nD τ).loc main_arg10)))
        (transpose S128x64 [1, 0] (m ((c : Thread nD τ).loc main_arg11)) transposes_S64x128_S128x64_1_0)
        (Spec.coord (m ((c : Thread nD τ).loc main_arg12))) := by
  refine ((W6_arr m ρ c 5).trans (Cert.KernelIdeal.Region.arr2 (V5 m ρ) c)).trans ?_
  rw [show V5 m ρ c main_v28 = _ from W5_v28 m ρ c, show V5 m ρ c main_v29 = _ from W5_v29 m ρ c,
    show V5 m ρ c main_v30 = _ from W5_v30 m ρ c, show V5 m ρ c main_v4 = _ from W5_v4 m ρ c,
    show V5 m ρ c main_v31 = _ from W5_v31 m ρ c, Spec.lane_reshape, Spec.lane_reshape, Spec.lane_reshape,
    W4_v18, W2_v5]
  rfl

end Cert.KernelIdeal.Fold

end
-- ==== Proof.HFilm.lean ====
/-
  The FiLM stage as the reference spells it on the whole 50000-row array: two general products with the transposed
  weights, the 256-lane product sliced into its halves, multiply, add, maximum with zero.
-/
import proofs.«105840_j84765474554364_1_alg».proof.ReferenceIdeal
import proofs.«105840_j84765474554364_1_alg».proof.Proof.Gen.ReferenceIdeal
import proofs.«105840_j84765474554364_1_alg».proof.Proof.LibRowwise
import proofs.«105840_j84765474554364_1_alg».proof.Proof.Spec
import Idealize.ShloMosaic.Lib.Pipeline.Value
import Idealize.ShloMosaic.Lib.ValueLayout

noncomputable section

namespace Cert.ReferenceIdeal.Stage

open Idealize.ShloMosaic Idealize.ShloMosaic.ValueIdx Cert.ReferenceIdeal Cert.ReferenceIdeal.Gen

/-- The reference's FiLM stage of an array `x` with already transposed weights. -/
def hFilm (x : FVec Ideal S50000x128 .f32) (Wt : FVec Ideal S128x128 .f32) (Ft : FVec Ideal S128x256 .f32) : FVec Ideal S50000x128 .f32 :=
  maximumf
    (addf
      (mulf
        (extractStridedSlice S50000x128 ![0, 0] (Host.dotGeneral dot_S50000x128_S128x256_S50000x256_1_0_0_1_n_n none x Ft) slices_S50000x256_S50000x128_0_0)
        (Host.dotGeneral dot_S50000x128_S128x128_S50000x128_1_0_0_1_n_n none x Wt))
      (extractStridedSlice S50000x128 ![0, 128] (Host.dotGeneral dot_S50000x128_S128x256_S50000x256_1_0_0_1_n_n none x Ft) slices_S50000x256_S50000x128_0_128))
    (broadcastInDim S50000x128 ![] bcast_S_S50000x128 (constant S_ .f32 0x00000000#32))

/-! ## The two general products at an index -/

theorem dotW_lhs0 (i : S50000x128.Idx) (c : dot_S50000x128_S128x128_S50000x128_1_0_0_1_n_n.contr.Idx) :
    (dot_S50000x128_S128x128_S50000x128_1_0_0_1_n_n.lhsIdx i c 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem dotW_lhs1 (i : S50000x128.Idx) (c : dot_S50000x128_S128x128_S50000x128_1_0_0_1_n_n.contr.Idx) :
    (dot_S50000x128_S128x128_S50000x128_1_0_0_1_n_n.lhsIdx i c 1).val = (c ⟨0, by decide⟩).val :=
  dot_S50000x128_S128x128_S50000x128_1_0_0_1_n_n.lhsIdx_val_of_single rfl i c
theorem dotW_rhs0 (i : S50000x128.Idx) (c : dot_S50000x128_S128x128_S50000x128_1_0_0_1_n_n.contr.Idx) :
    (dot_S50000x128_S128x128_S50000x128_1_0_0_1_n_n.rhsIdx i c 0).val = (c ⟨0, by decide⟩).val :=
  dot_S50000x128_S128x128_S50000x128_1_0_0_1_n_n.rhsIdx_val_of_single rfl i c
theorem dotW_rhs1 (i : S50000x128.Idx) (c : dot_S50000x128_S128x128_S50000x128_1_0_0_1_n_n.contr.Idx) :
    (dot_S50000x128_S128x128_S50000x128_1_0_0_1_n_n.rhsIdx i c 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The general product with the square weight array, at `(p, q)`: the sum over the contracted coordinate. -/
theorem dotW_apply (a : FVec Ideal S50000x128 .f32) (b : FVec Ideal S128x128 .f32) (p : Fin 50000) (q : Fin 128) :
    Host.dotGeneral dot_S50000x128_S128x128_S50000x128_1_0_0_1_n_n none a b (ix2 p q) = ∑ k : Fin 128, a (ix2 p k) * b (ix2 k q) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p q) ((contrEquiv1 dot_S50000x128_S128x128_S50000x128_1_0_0_1_n_n 128 rfl rfl).symm k) = ix2 p k := funext fun a => Fin.ext (by
    match a with
    | ⟨0, _⟩ => exact dotW_lhs0 _ _
    | ⟨1, _⟩ => exact (dotW_lhs1 _ _).trans hk)
  have er : dot_S50000x128_S128x128_S50000x128_1_0_0_1_n_n.rhsIdx (ix2 p q) ((contrEquiv1 dot_S50000x128_S128x128_S50000x128_1_0_0_1_n_n 128 rfl rfl).symm k) = ix2 k q := funext fun a => Fin.ext (by
    match a with
    | ⟨0, _⟩ => exact (dotW_rhs0 _ _).trans hk
    | ⟨1, _⟩ => exact dotW_rhs1 _ _)
  rw [el, er]

theorem dotF_lhs0 (i : S50000x256.Idx) (c : dot_S50000x128_S128x256_S50000x256_1_0_0_1_n_n.contr.Idx) :
    (dot_S50000x128_S128x256_S50000x256_1_0_0_1_n_n.lhsIdx i c 0).val = (i 0).val := by
  unfold DotDims.lhsIdx
  rw [dif_neg (show ¬(0 : Fin S50000x128.rank) ∈ dot_S50000x128_S128x256_S50000x256_1_0_0_1_n_n.lhsBatch by decide), dif_pos (show (0 : Fin S50000x128.rank) ∈ dot_S50000x128_S128x256_S50000x256_1_0_0_1_n_n.lhsNonContracting by decide)]
  rfl
theorem dotF_lhs1 (i : S50000x256.Idx) (c : dot_S50000x128_S128x256_S50000x256_1_0_0_1_n_n.contr.Idx) :
    (dot_S50000x128_S128x256_S50000x256_1_0_0_1_n_n.lhsIdx i c 1).val = (c ⟨0, by decide⟩).val :=
  dot_S50000x128_S128x256_S50000x256_1_0_0_1_n_n.lhsIdx_val_of_single rfl i c
theorem dotF_rhs0 (i : S50000x256.Idx) (c : dot_S50000x128_S128x256_S50000x256_1_0_0_1_n_n.contr.Idx) :
    (dot_S50000x128_S128x256_S50000x256_1_0_0_1_n_n.rhsIdx i c 0).val = (c ⟨0, by decide⟩).val :=
  dot_S50000x128_S128x256_S50000x256_1_0_0_1_n_n.rhsIdx_val_of_single rfl i c
theorem dotF_rhs1 (i : S50000x256.Idx) (c : dot_S50000x128_S128x256_S50000x256_1_0_0_1_n_n.contr.Idx) :
    (dot_S50000x128_S128x256_S50000x256_1_0_0_1_n_n.rhsIdx i c 1).val = (i 1).val := by
  unfold DotDims.rhsIdx
  rw [dif_neg (show ¬(1 : Fin S128x256.rank) ∈ dot_S50000x128_S128x256_S50000x256_1_0_0_1_n_n.rhsBatch by decide), dif_pos (show (1 : Fin S128x256.rank) ∈ dot_S50000x128_S128x256_S50000x256_1_0_0_1_n_n.rhsNonContracting by decide)]
  rfl

/-- The general product with the 256-lane weight array, at `(p, q)`: the sum over the contracted coordinate. -/
theorem dotF_apply (a : FVec Ideal S50000x128 .f32) (b : FVec Ideal S128x256 .f32) (p : Fin 50000) (q : Fin 256) :
    Host.dotGeneral dot_S50000x128_S128x256_S50000x256_1_0_0_1_n_n none a b (ix2 p q) = ∑ k : Fin 128, a (ix2 p k) * b (ix2 k q) := by
  simp only [Host.dotGeneral]
  rw [Ideal.dotGeneral_apply, ← Equiv.sum_comp (contrEquiv1 dot_S50000x128_S128x256_S50000x256_1_0_0_1_n_n 128 rfl rfl).symm]
  refine Finset.sum_congr rfl fun k _ => ?_
  have hk := contrEquiv1_symm_val dot_S50000x128_S128x256_S50000x256_1_0_0_1_n_n 128 rfl rfl k
  have el : dot_S50000x128_S128x256_S50000x256_1_0_0_1_n_n.lhsIdx (ix2 p q) ((contrEquiv1 dot_S50000x128_S128x256_S50000x256_1_0_0_1_n_n 128 rfl rfl).symm k) = ix2 p k := funext fun a => Fin.ext (by
    match a with
    | ⟨0, _⟩ => exact dotF_lhs0 _ _
    | ⟨1, _⟩ => exact (dotF_lhs1 _ _).trans hk)
  have er : dot_S50000x128_S128x256_S50000x256_1_0_0_1_n_n.rhsIdx (ix2 p q) ((contrEquiv1 dot_S50000x128_S128x256_S50000x256_1_0_0_1_n_n 128 rfl rfl).symm k) = ix2 k q := funext fun a => Fin.ext (by
    match a with
    | ⟨0, _⟩ => exact (dotF_rhs0 _ _).trans hk
    | ⟨1, _⟩ => exact dotF_rhs1 _ _)
  rw [el, er]

/-! ## The halves of the 256-lane product and the zero array -/

/-- The lower half of a 256-lane array, at `(p, q)`: lane `q`. -/
theorem hSliceLo_apply {α : Type} (v : S50000x256.Idx → α) (p : Fin 50000) (q : Fin 128) :
    extractStridedSlice S50000x128 ![0, 0] v slices_S50000x256_S50000x128_0_0 (ix2 p q) = v (ix2 p (Spec.lo q)) := by
  refine extractStridedSlice_apply ![0, 0] v slices_S50000x256_S50000x128_0_0 (ix2 p q) (ix2 p (Spec.lo q)) fun a => ?_
  match a with
  | ⟨0, _⟩ => exact (Nat.zero_add _).symm
  | ⟨1, _⟩ => exact (Nat.zero_add _).symm

/-- The upper half of a 256-lane array, at `(p, q)`: lane `128 + q`. -/
theorem hSliceHi_apply {α : Type} (v : S50000x256.Idx → α) (p : Fin 50000) (q : Fin 128) :
    extractStridedSlice S50000x128 ![0, 128] v slices_S50000x256_S50000x128_0_128 (ix2 p q) = v (ix2 p (Spec.hi q)) := by
  refine extractStridedSlice_apply ![0, 128] v slices_S50000x256_S50000x128_0_128 (ix2 p q) (ix2 p (Spec.hi q)) fun a => ?_
  match a with
  | ⟨0, _⟩ => exact (Nat.zero_add _).symm
  | ⟨1, _⟩ => rfl

/-- The scalar zero word spread over the array is the zero word at every index. -/
theorem hZero_apply (i : S50000x128.Idx) :
    broadcastInDim S50000x128 ![] bcast_S_S50000x128 (constant (F := Ideal) S_ .f32 0x00000000#32) i = Spec.wZero := rfl

/-- Row by row it is the FiLM stage of the specification. -/
theorem hFilm_eq (x : FVec Ideal S50000x128 .f32) (Wt : FVec Ideal S128x128 .f32) (Ft : FVec Ideal S128x256 .f32) :
    hFilm x Wt Ft = Spec.Film x Wt Ft := by
  funext i
  obtain ⟨p, q, rfl⟩ : ∃ (p : Fin 50000) (q : Fin 128), i = ix2 p q := ⟨i 0, i 1, eq_ix2 i⟩
  rw [Spec.Film_apply]
  unfold Spec.filmRow hFilm
  show max (extractStridedSlice (s := S50000x256) S50000x128 ![0, 0] _ slices_S50000x256_S50000x128_0_0 (ix2 p q) * Host.dotGeneral _ none _ _ (ix2 p q)
        + extractStridedSlice (s := S50000x256) S50000x128 ![0, 128] _ slices_S50000x256_S50000x128_0_128 (ix2 p q))
        (broadcastInDim S50000x128 ![] bcast_S_S50000x128 (constant (F := Ideal) S_ .f32 0x00000000#32) (ix2 p q)) = _
  rw [hSliceLo_apply, hSliceHi_apply, dotW_apply, dotF_apply, dotF_apply, hZero_apply]

end Cert.ReferenceIdeal.Stage

end
-- ==== Proof.HLn.lean ====
/-
  The layer normalisation as the reference spells it on the whole 50000-row array: host sums along the lanes,
  divisions by 128, the reciprocal square root of the variance plus ε, then the scale and shift vectors
  broadcast along the rows.
-/
import proofs.«105840_j84765474554364_1_alg».proof.ReferenceIdeal
import proofs.«105840_j84765474554364_1_alg».proof.Proof.Gen.ReferenceIdeal
import proofs.«105840_j84765474554364_1_alg».proof.Proof.LibRowwise
import proofs.«105840_j84765474554364_1_alg».proof.Proof.Spec
import Idealize.ShloMosaic.Lib.Pipeline.Value
import Idealize.ShloMosaic.Lib.ValueLayout

noncomputable section

namespace Cert.ReferenceIdeal.Stage

open Idealize.ShloMosaic Idealize.ShloMosaic.ValueIdx Cert.ReferenceIdeal Cert.ReferenceIdeal.Gen

/-- The reference's normalisation of an array `h` with scale `g` and shift `b`. -/
def hLN (h : FVec Ideal S50000x128 .f32) (g b : FVec Ideal S128 .f32) : FVec Ideal S50000x128 .f32 :=
  let v19 : FVec Ideal S50000 .f32 := Host.reduceAdd h (constant S_ .f32 0x00000000#32) reducesTo_S50000x128_S50000_d1 h_S_
  let v20 : FVec Ideal S50000x1 .f32 := broadcastInDim S50000x1 ![0] bcast_S50000_S50000x1_0 v19
  let v21 : FVec Ideal S50000x1 .f32 := broadcastInDim S50000x1 ![] bcast_S_S50000x1 (constant S_ .f32 0x43000000#32)
  let v22 : FVec Ideal S50000x1 .f32 := Host.divf v20 v21
  let v23 : FVec Ideal S50000x128 .f32 := broadcastInDim S50000x128 ![0, 1] bcast_S50000x1_S50000x128_0_1 v22
  let v24 : FVec Ideal S50000x128 .f32 := subf h v23
  let v25 : FVec Ideal S50000x128 .f32 := mulf v24 v24
  let v26 : FVec Ideal S50000 .f32 := Host.reduceAdd v25 (constant S_ .f32 0x00000000#32) reducesTo_S50000x128_S50000_d1 h_S_
  let v27 : FVec Ideal S50000x1 .f32 := broadcastInDim S50000x1 ![0] bcast_S50000_S50000x1_0 v26
  let v28 : FVec Ideal S50000x1 .f32 := broadcastInDim S50000x1 ![] bcast_S_S50000x1 (constant S_ .f32 0x43000000#32)
  let v29 : FVec Ideal S50000x1 .f32 := Host.divf v27 v28
  let v30 : FVec Ideal S50000x128 .f32 := broadcastInDim S50000x128 ![0, 1] bcast_S50000x1_S50000x128_0_1 v22
  let v31 : FVec Ideal S50000x128 .f32 := subf h v30
  let v32 : FVec Ideal S50000x1 .f32 := broadcastInDim S50000x1 ![] bcast_S_S50000x1 (constant S_ .f32 0x3727C5AC#32)
  let v33 : FVec Ideal S50000x1 .f32 := addf v29 v32
  let v34 : FVec Ideal S50000x1 .f32 := Host.rsqrt v33
  let v35 : FVec Ideal S50000x128 .f32 := broadcastInDim S50000x128 ![0, 1] bcast_S50000x1_S50000x128_0_1 v34
  let v36 : FVec Ideal S50000x128 .f32 := mulf v31 v35
  let v37 : FVec Ideal S1x128 .f32 := broadcastInDim S1x128 ![1] bcast_S128_S1x128_1 g
  let v38 : FVec Ideal S50000x128 .f32 := broadcastInDim S50000x128 ![0, 1] bcast_S1x128_S50000x128_0_1 v37
  let v39 : FVec Ideal S50000x128 .f32 := mulf v36 v38
  let v40 : FVec Ideal S1x128 .f32 := broadcastInDim S1x128 ![1] bcast_S128_S1x128_1 b
  let v41 : FVec Ideal S50000x128 .f32 := broadcastInDim S50000x128 ![0, 1] bcast_S1x128_S50000x128_0_1 v40
  addf v39 v41

/-- A host sum along the lanes from the zero word, at row `p`: the sum over the row. -/
theorem hostLaneSum_apply (src : FVec Ideal S50000x128 .f32) (p : Fin 50000) :
    Host.reduceAdd src (constant S_ .f32 0x00000000#32) reducesTo_S50000x128_S50000_d1 h_S_ (ix1 p)
      = ∑ k : Fin 128, src (ix2 p k) := by
  simp only [Host.reduceAdd, Ideal.hostReduceAdd_def]
  rw [Ideal.hostReduceAdd_single reducesTo_S50000x128_S50000_d1 (by decide)]
  show Ideal.ofBits .f32 0x00000000#32 + _ = _
  rw [Ideal.ofBits_zero_f32, zero_add]
  refine Finset.sum_congr rfl fun k _ => ?_
  exact congrArg src (funext fun a => Fin.ext (by match a with | ⟨0, _⟩ => rfl | ⟨1, _⟩ => rfl))

/-- A length-50000 vector broadcast to a column (its axis sent to axis 0) reads, at `(p, u)`, the vector at `p`. -/
theorem vecToColumn_apply (dims : Fin S50000.rank → Fin S50000x1.rank) (hb : S50000.BroadcastsInDim S50000x1 dims)
    (hd : dims = ![0]) (v : FVec Ideal S50000 .f32) (p : Fin 50000) (u : Fin 1) :
    broadcastInDim S50000x1 dims hb v (ix2 p u) = v (ix1 p) := by
  subst hd
  exact broadcastInDim_apply _ hb v (ix2 p u) (ix1 p) (fun a => match a with
    | ⟨0, _⟩ => by show p.val = if (50000 : Nat) = 1 then 0 else p.val; rw [if_neg (by decide)])

/-- A scalar broadcast to a column reads the scalar everywhere. -/
theorem scalarToColumn_apply (dims : Fin S_.rank → Fin S50000x1.rank) (hb : S_.BroadcastsInDim S50000x1 dims)
    (c : FVec Ideal S_ .f32) (j : S50000x1.Idx) : broadcastInDim S50000x1 dims hb c j = c ix0 :=
  broadcastInDim_apply dims hb c j ix0 (fun a => a.elim0)

/-- A column broadcast along the lanes (axes kept in place) reads, at `(p, q)`, the column at `(p, 0)`. -/
theorem columnToLanes_apply (dims : Fin S50000x1.rank → Fin S50000x128.rank) (hb : S50000x1.BroadcastsInDim S50000x128 dims)
    (hd : dims = ![0, 1]) (v : FVec Ideal S50000x1 .f32) (p : Fin 50000) (q : Fin 128) :
    broadcastInDim S50000x128 dims hb v (ix2 p q) = v (ix2 p 0) := by
  subst hd
  exact broadcastInDim_apply _ hb v (ix2 p q) (ix2 p 0) (fun a => match a with
    | ⟨0, _⟩ => by show p.val = if (50000 : Nat) = 1 then 0 else p.val; rw [if_neg (by decide)]
    | ⟨1, _⟩ => by show 0 = if (1 : Nat) = 1 then 0 else q.val; rw [if_pos rfl])

/-- A length-128 vector broadcast to a one-row array (its axis sent to axis 1) reads, at `(u, q)`, the vector at `q`. -/
theorem vecToRow_apply (dims : Fin S128.rank → Fin S1x128.rank) (hb : S128.BroadcastsInDim S1x128 dims)
    (hd : dims = ![1]) (v : FVec Ideal S128 .f32) (u : Fin 1) (q : Fin 128) :
    broadcastInDim S1x128 dims hb v (ix2 u q) = v (ix1 q) := by
  subst hd
  exact broadcastInDim_apply _ hb v (ix2 u q) (ix1 q) (fun a => match a with
    | ⟨0, _⟩ => by show q.val = if (128 : Nat) = 1 then 0 else q.val; rw [if_neg (by decide)])

/-- A one-row array broadcast along the rows (axes kept in place) reads, at `(p, q)`, the row at `(0, q)`. -/
theorem rowToRows_apply (dims : Fin S1x128.rank → Fin S50000x128.rank) (hb : S1x128.BroadcastsInDim S50000x128 dims)
    (hd : dims = ![0, 1]) (v : FVec Ideal S1x128 .f32) (p : Fin 50000) (q : Fin 128) :
    broadcastInDim S50000x128 dims hb v (ix2 p q) = v (ix2 0 q) := by
  subst hd
  exact broadcastInDim_apply _ hb v (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- Row by row it is the normalisation of the specification. -/
theorem hLN_eq (h : FVec Ideal S50000x128 .f32) (g b : FVec Ideal S128 .f32) :
    hLN h g b = Spec.LNorm h (Spec.coord g) (Spec.coord b) := by
  funext i
  obtain ⟨p, q, rfl⟩ : ∃ (p : Fin 50000) (q : Fin 128), i = ix2 p q := ⟨i 0, i 1, eq_ix2 i⟩
  rw [Spec.LNorm_apply]
  unfold Spec.lnRow Spec.mean
  -- push the index (p, q) through the pointwise operations, the broadcasts and the two lane sums
  simp only [hLN, addf, mulf, subf, Host.divf, Host.rsqrt, hostLaneSum_apply, vecToColumn_apply, scalarToColumn_apply,
    columnToLanes_apply, vecToRow_apply, rowToRows_apply]
  -- what is left is the specification's row, operation for operation
  rfl

end Cert.ReferenceIdeal.Stage

end
-- ==== Proof.HProj.lean ====
/-
  The projection as the reference spells it on the whole 50000-row array: a general product with the transposed
  128×64 weights, the bias vector broadcast along the rows, then the logistic function written out as
  `1 / (1 + exp (−z))` in host operations.
-/
import proofs.«105840_j84765474554364_1_alg».proof.ReferenceIdeal
import proofs.«105840_j84765474554364_1_alg».proof.Proof.Gen.ReferenceIdeal
import proofs.«105840_j84765474554364_1_alg».proof.Proof.LibRowwise
import proofs.«105840_j84765474554364_1_alg».proof.Proof.Spec
import Idealize.ShloMosaic.Lib.Pipeline.Value
import Idealize.ShloMosaic.Lib.ValueLayout
import Idealize.ShloMosaic.Lib.IdealHost

noncomputable section

namespace Cert.ReferenceIdeal.Stage

open Idealize.ShloMosaic Idealize.ShloMosaic.ValueIdx Cert.ReferenceIdeal Cert.ReferenceIdeal.Gen

/-- The reference's projection of an array `y` with already transposed weights `Wpt` and bias `bp`. -/
def hProj (y : FVec Ideal S50000x128 .f32) (Wpt : FVec Ideal S128x64 .f32) (bp : FVec Ideal S64 .f32) : FVec Ideal S50000x64 .f32 :=
  let v87 : FVec Ideal S50000x64 .f32 := Host.dotGeneral dot_S50000x128_S128x64_S50000x64_1_0_0_1_n_n none y Wpt
  let v88 : FVec Ideal S1x64 .f32 := broadcastInDim S1x64 ![1] bcast_S64_S1x64_1 bp
  let v89 : FVec Ideal S50000x64 .f32 := broadcastInDim S50000x64 ![0, 1] bcast_S1x64_S50000x64_0_1 v88
  let v90 : FVec Ideal S50000x64 .f32 := addf v87 v89
  let v91 : FVec Ideal S50000x64 .f32 := Host.negf v90
  let v92 : FVec Ideal S50000x64 .f32 := Host.exp v91
  let v93 : FVec Ideal S50000x64 .f32 := broadcastInDim S50000x64 ![] bcast_S_S50000x64 (constant S_ .f32 0x3F800000#32)
  let v94 : FVec Ideal S50000x64 .f32 := addf v93 v92
  let v95 : FVec Ideal S50000x64 .f32 := broadcastInDim S50000x64 ![] bcast_S_S50000x64 (constant S_ .f32 0x3F800000#32)
  Host.divf v95 v94

/-- A general product over the plain record, at `(p, q)`: the sum over the contracted coordinate. -/
theorem plain_dotGeneral_apply {M K N : Nat} {φ₁ φ₂ : FTy} (prec : Option ContractPrecision)
    (a : FVec Ideal ⟨2, ![M, K]⟩ φ₁) (b : FVec Ideal ⟨2, ![K, N]⟩ φ₂) (p : Fin M) (q : Fin N) :
    Host.dotGeneral (DotDims.plain M K N) prec a b (ix2 p q) = ∑ k : Fin K, a (ix2 p k) * b (ix2 k q) := by
  show FloatOps.dotGeneral (DotDims.plain M K N) prec .single a b (ix2 p q) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun c => Fin.ext (by
      match c with
      | ⟨0, _⟩ => exact Cert.Lib.Rowwise.plain_lhs0 _ _
      | ⟨1, _⟩ => exact (Cert.Lib.Rowwise.plain_lhs1 _ _).trans hk)
  have er : (DotDims.plain M K N).rhsIdx (ix2 p q) ((contrEquiv1 (DotDims.plain M K N) K rfl rfl).symm k) = ix2 k q :=
    funext fun c => Fin.ext (by
      match c with
      | ⟨0, _⟩ => exact (Cert.Lib.Rowwise.plain_rhs0 _ _).trans hk
      | ⟨1, _⟩ => exact Cert.Lib.Rowwise.plain_rhs1 _ _)
  rw [el, er]

/-- The product of the array with the transposed weights, at `(p, q)`: the sum over the 128 lanes. -/
theorem hProj_dot_apply (a : FVec Ideal S50000x128 .f32) (b : FVec Ideal S128x64 .f32) (p : Fin 50000) (q : Fin 64) :
    Host.dotGeneral dot_S50000x128_S128x64_S50000x64_1_0_0_1_n_n none a b (ix2 p q)
      = ∑ k : Fin 128, a (ix2 p k) * b (ix2 k q) := by
  rw [Cert.Lib.Rowwise.eq_plain dot_S50000x128_S128x64_S50000x64_1_0_0_1_n_n rfl rfl rfl rfl rfl rfl]
  exact plain_dotGeneral_apply none a b p q

/-- The bias vector made a one-row array reads, at `(u, q)`, the vector at `q`. -/
theorem biasRow_apply (v : FVec Ideal S64 .f32) (u : Fin 1) (q : Fin 64) :
    broadcastInDim S1x64 ![1] bcast_S64_S1x64_1 v (ix2 u q) = v (ix1 q) := by
  refine broadcastInDim_apply _ bcast_S64_S1x64_1 v (ix2 u q) (ix1 q) fun c => ?_
  match c with
  | ⟨0, _⟩ => show q.val = if (64 : Nat) = 1 then 0 else q.val; rw [if_neg (by decide)]

/-- The one-row array broadcast along the rows reads, at `(p, q)`, the row at `(0, q)`. -/
theorem biasRows_apply (v : FVec Ideal S1x64 .f32) (p : Fin 50000) (q : Fin 64) :
    broadcastInDim S50000x64 ![0, 1] bcast_S1x64_S50000x64_0_1 v (ix2 p q) = v (ix2 0 q) := by
  refine broadcastInDim_apply _ bcast_S1x64_S50000x64_0_1 v (ix2 p q) (ix2 0 q) fun c => ?_
  match c with
  | ⟨0, _⟩ => show 0 = if (1 : Nat) = 1 then 0 else p.val; rw [if_pos rfl]
  | ⟨1, _⟩ => show q.val = if (64 : Nat) = 1 then 0 else q.val; rw [if_neg (by decide)]

/-- A scalar broadcast to the whole array reads the scalar everywhere. -/
theorem scalarBroadcast_apply (c : FVec Ideal S_ .f32) (j : S50000x64.Idx) :
    broadcastInDim S50000x64 ![] bcast_S_S50000x64 c j = c ix0 :=
  broadcastInDim_apply _ bcast_S_S50000x64 c j ix0 fun a => a.elim0

/-- Row by row it is the projection of the specification. -/
theorem hProj_eq (y : FVec Ideal S50000x128 .f32) (Wpt : FVec Ideal S128x64 .f32) (bp : FVec Ideal S64 .f32) :
    hProj y Wpt bp = Spec.Proj y Wpt (Spec.coord bp) := by
  funext i
  obtain ⟨p, q, rfl⟩ : ∃ (p : Fin 50000) (q : Fin 64), i = ix2 p q := ⟨i 0, i 1, eq_ix2 i⟩
  rw [Spec.Proj_apply]
  unfold Spec.projRow
  show Ideal.div
      (broadcastInDim S50000x64 ![] bcast_S_S50000x64 (constant (F := Ideal) S_ .f32 0x3F800000#32) (ix2 p q))
      (broadcastInDim S50000x64 ![] bcast_S_S50000x64 (constant (F := Ideal) S_ .f32 0x3F800000#32) (ix2 p q)
        + Ideal.exp (-(Host.dotGeneral dot_S50000x128_S128x64_S50000x64_1_0_0_1_n_n none y Wpt (ix2 p q)
            + broadcastInDim S50000x64 ![0, 1] bcast_S1x64_S50000x64_0_1
                (broadcastInDim S1x64 ![1] bcast_S64_S1x64_1 bp) (ix2 p q)))) = _
  rw [hProj_dot_apply, biasRows_apply, biasRow_apply, scalarBroadcast_apply]
  show Ideal.div (Ideal.ofBits .f32 0x3F800000#32) (Ideal.ofBits .f32 0x3F800000#32 + _) = _
  rw [Ideal.ofBits_one_f32]
  rfl

end Cert.ReferenceIdeal.Stage

end
-- ==== Proof.HAgg.lean ====
/-
  The edge aggregation as the reference spells it: negative source indices are wrapped by the row count, the
  message rows are gathered at the sources and added into a zero array at the destinations.  Both programs do
  this step with the same host operations, so it is carried as one function and never opened.
-/
import proofs.«105840_j84765474554364_1_alg».proof.ReferenceIdeal
import proofs.«105840_j84765474554364_1_alg».proof.Proof.Gen.ReferenceIdeal
import proofs.«105840_j84765474554364_1_alg».proof.Proof.LibRowwise
import proofs.«105840_j84765474554364_1_alg».proof.Proof.Spec
import Idealize.ShloMosaic.Lib.Pipeline.Value
import Idealize.ShloMosaic.Lib.ValueLayout

noncomputable section

namespace Cert.ReferenceIdeal.Stage

open Idealize.ShloMosaic Idealize.ShloMosaic.ValueIdx Cert.ReferenceIdeal Cert.ReferenceIdeal.Gen

/-- The gather at `src` and scatter-add at `dst` of a message array. -/
def hAgg (msg : FVec Ideal S50000x128 .f32) (src dst : (⟨S600000, .i32⟩ : BufTy).Contents (Elt Ideal)) : FVec Ideal S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst)
    (Host.gather gather_S50000x128_S600000x1_S600000x128_1_0_n_n_0_1_1128 msg
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

end Cert.ReferenceIdeal.Stage

end
-- ==== Proof.RefTerm.lean ====
/-
  The reference's result, as the run states it, is its four stages composed: FiLM, aggregation, normalisation,
  FiLM, aggregation, normalisation, projection, over the transposed weights.  Row by row each stage is the
  specification's, so the result is the network of the specification applied to the arguments, the aggregation
  being the reference's own gather and scatter-add at the source and destination arguments.
-/
import proofs.«105840_j84765474554364_1_alg».proof.Proof.Gen.ReferenceIdeal.Run
import proofs.«105840_j84765474554364_1_alg».proof.Proof.HFilm
import proofs.«105840_j84765474554364_1_alg».proof.Proof.HLn
import proofs.«105840_j84765474554364_1_alg».proof.Proof.HProj
import proofs.«105840_j84765474554364_1_alg».proof.Proof.HAgg
import proofs.«105840_j84765474554364_1_alg».proof.Proof.SpecNet

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Stage

variable (m : (ℓ : Loc nD τ sig) → Buf (Elt Ideal) ℓ)

/-- The run's result term is the stages composed (the same operations, grouped). -/
theorem res_eq_stages (c : Dev nD) : Cert.ReferenceIdeal.Value.res_main_v96 (F := Ideal) m c
    = hProj
        (hLN
          (hAgg
            (hFilm
              (hLN
                (hAgg
                  (hFilm (m ((c.tc : Thread nD τ).loc main_arg0))
                    (transpose S128x128 [1, 0] (m ((c.tc : Thread nD τ).loc main_arg3)) transposes_S128x128_S128x128_1_0)
                    (transpose S128x256 [1, 0] (m ((c.tc : Thread nD τ).loc main_arg4)) transposes_S256x128_S128x256_1_0))
                  (m ((c.tc : Thread nD τ).loc main_arg1)) (m ((c.tc : Thread nD τ).loc main_arg2)))
                (m ((c.tc : Thread nD τ).loc main_arg5)) (m ((c.tc : Thread nD τ).loc main_arg6)))
              (transpose S128x128 [1, 0] (m ((c.tc : Thread nD τ).loc main_arg7)) transposes_S128x128_S128x128_1_0)
              (transpose S128x256 [1, 0] (m ((c.tc : Thread nD τ).loc main_arg8)) transposes_S256x128_S128x256_1_0))
            (m ((c.tc : Thread nD τ).loc main_arg1)) (m ((c.tc : Thread nD τ).loc main_arg2)))
          (m ((c.tc : Thread nD τ).loc main_arg9)) (m ((c.tc : Thread nD τ).loc main_arg10)))
        (transpose S128x64 [1, 0] (m ((c.tc : Thread nD τ).loc main_arg11)) transposes_S64x128_S128x64_1_0)
        (m ((c.tc : Thread nD τ).loc main_arg12)) := by
  unfold Cert.ReferenceIdeal.Value.res_main_v96 hProj hLN hAgg hFilm
  rfl

/-- The reference's result is the network of the specification applied to the arguments. -/
theorem res_eq_net (c : Dev nD) : Cert.ReferenceIdeal.Value.res_main_v96 (F := Ideal) m c
    = Spec.Net (fun msg => hAgg msg (m ((c.tc : Thread nD τ).loc main_arg1)) (m ((c.tc : Thread nD τ).loc main_arg2))) (m ((c.tc : Thread nD τ).loc main_arg0))
        (transpose S128x128 [1, 0] (m ((c.tc : Thread nD τ).loc main_arg3)) transposes_S128x128_S128x128_1_0)
        (transpose S128x256 [1, 0] (m ((c.tc : Thread nD τ).loc main_arg4)) transposes_S256x128_S128x256_1_0)
        (Spec.coord (m ((c.tc : Thread nD τ).loc main_arg5))) (Spec.coord (m ((c.tc : Thread nD τ).loc main_arg6)))
        (transpose S128x128 [1, 0] (m ((c.tc : Thread nD τ).loc main_arg7)) transposes_S128x128_S128x128_1_0)
        (transpose S128x256 [1, 0] (m ((c.tc : Thread nD τ).loc main_arg8)) transposes_S256x128_S128x256_1_0)
        (Spec.coord (m ((c.tc : Thread nD τ).loc main_arg9))) (Spec.coord (m ((c.tc : Thread nD τ).loc main_arg10)))
        (transpose S128x64 [1, 0] (m ((c.tc : Thread nD τ).loc main_arg11)) transposes_S64x128_S128x64_1_0)
        (Spec.coord (m ((c.tc : Thread nD τ).loc main_arg12))) := by
  rw [res_eq_stages]
  simp only [hProj_eq, hLN_eq, hFilm_eq]
  rfl

end Cert.ReferenceIdeal.RefValue

end
-- ==== Proof.lean ====
/-
  The two programs compute the same network.  Both apply, to the rows of a 50000 × 128 feature array, a FiLM
  stage (two products with the transposed weights, `max (γ · m + β) 0`), aggregate the rows over the edges
  (gather at the sources, scatter-add at the destinations), normalise each row by its mean and variance, and
  repeat; a projection through the logistic function ends both.  The kernel program does the row-wise stages in
  three regions, each over a grid of ten 5000-row blocks, and the aggregation in host code between them; the
  reference does everything on the whole array.  On the extended reals a change of float format is the identity, a
  product into a zero accumulator and a host contraction are the same sum over the contracted coordinate, a lane
  sum and a host sum the same sum over the lanes, and the logistic function is `1 / (1 + exp (−z))`; every stage
  acts on each row by itself, so a stage of a block is that block of the stage; the ten blocks tile the rows.  No
  law beyond these is used, and the inputs' finiteness is never opened.

  `frame_Kernel` and `frame_KernelIdeal` are the generated frames; `frame_ReferenceIdeal` is the reference's
  generated run with its result dropped; `preserves_Kernel_KernelIdeal` is `True` (the idealization rewrote no
  operation); `algebraic_KernelIdeal_ReferenceIdeal` puts the kernel program's run with its result named beside the
  reference's run: both results are the network of the specification applied to the arguments, and the two
  programs' aggregations are one function of the message array and the index arguments.
-/
import proofs.«105840_j84765474554364_1_alg».proof.Defs
import proofs.«105840_j84765474554364_1_alg».proof.Proof.Gen.Kernel
import proofs.«105840_j84765474554364_1_alg».proof.Proof.Gen.Kernel.Frame
import proofs.«105840_j84765474554364_1_alg».proof.Proof.Gen.KernelIdeal
import proofs.«105840_j84765474554364_1_alg».proof.Proof.Gen.KernelIdeal.Frame
import proofs.«105840_j84765474554364_1_alg».proof.Proof.Gen.ReferenceIdeal
import proofs.«105840_j84765474554364_1_alg».proof.Proof.Gen.ReferenceIdeal.Run
import proofs.«105840_j84765474554364_1_alg».proof.Proof.Gen.Pre_finite_inputs
import proofs.«105840_j84765474554364_1_alg».proof.Proof.KRun
import proofs.«105840_j84765474554364_1_alg».proof.Proof.Fold
import proofs.«105840_j84765474554364_1_alg».proof.Proof.RefTerm
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs' aggregations are one function: the same host operations over the same dimension records. -/
theorem agg_eq (msg : FVec Ideal Cert.KernelIdeal.S50000x128 .f32)
    (src dst : (⟨Cert.KernelIdeal.S600000, .i32⟩ : BufTy).Contents (Elt Ideal)) :
    Cert.ReferenceIdeal.Stage.hAgg msg src dst = Cert.KernelIdeal.Stage.kAgg msg src dst := rfl

/-- From memories that agree on the arguments both programs end with the network of the specification applied to
    the arguments in their result arrays. -/
theorem algebraic : Cert.algebraic_KernelIdeal_ReferenceIdeal := by
  intro m ρ m' ρ' _ hagree
  refine ⟨fun c => Cert.KernelIdeal.Gen.W6 m ρ c (Proc.devRef .tc Cert.KernelIdeal.main_v32),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  refine (Cert.ReferenceIdeal.RefValue.res_eq_net m' c).trans ?_
  refine Eq.trans ?_ (Cert.KernelIdeal.Fold.result m ρ c).symm
  rw [h0, h1, h2, h3, h4, h5, h6, h7, h8, h9, h10, h11, h12]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
